-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128x128 .f32) (main_arg12 : FVec F S128 .f32) (main_arg13 : FVec F S128 .f32) (main_arg14 : FVec F S128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128x128 .f32) (main_arg8 : FVec F S128x128 .f32) (main_arg9 : FVec F S128x128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_v13 : IVec S_ 1) (main_v16 : IVec S262144x128 1) : IVec S_ 1 :=
  let main_c_5 : IVec S_ 1 := constantI S_ 1 1#1
  let main_v17 : IVec S_ 1 := (fun x v => Host.reduce IntOp.andi x v reducesTo_S262144x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S262144x128 .f32) (main_arg1 : FVec F S262144x128 .f32) (main_arg2 : FVec F S262144x128 .f32) (main_arg3 : FVec F S262144x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128 .f32) (main_arg13 : FVec F S128 .f32) (main_arg14 : FVec F S128 .f32) (main_arg15 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x128 .f32 := Host.absf main_arg3
  let main_cst_4 : FVec F S_ .f32 := constant S_ .f32 0x7F800000#32
  let main_v15 : FVec F S262144x128 .f32 := broadcastInDim S262144x128 ![] bcast_S_S262144x128 main_cst_4
  let main_v16 : IVec S262144x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S262144x128 : Shape := ⟨2, ![262144, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 31
  | .vmem => 17
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x512, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x512, .f32⟩
  | .hbm, ⟨26, _⟩ => ⟨S512, .f32⟩
  | .hbm, ⟨27, _⟩ => ⟨S1x512, .f32⟩
  | .hbm, ⟨28, _⟩ => ⟨S262144x128, .f32⟩
  | .hbm, ⟨29, _⟩ => ⟨S262144x128, .f32⟩
  | .hbm, ⟨30, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S262144x128.size a
  hwx0_8 : ∀ i : grid0.Coords, EltTy.bits .f32 = 32 ∨ (Rect.block (s := S262144x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .f32 = 32 ∨ (Rect.block (s := S262144x128) S2048x128.size (cc0_transform_9 i) (hinb0_9 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S262144x128, .f32⟩
  | .hbm, ⟨18, _⟩ => ⟨S128x128, .f32⟩
  | .hbm, ⟨19, _⟩ => ⟨S262144x128, .f32⟩
  | .hbm, ⟨20, _⟩ => ⟨S262144x128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S128x128, .f32⟩
  | .hbm, ⟨25, _⟩ => ⟨S262144x128, .f32⟩
  | .hbm, ⟨26, _⟩ => ⟨S128x128, .f32⟩
  | .hbm, ⟨27, _⟩ => ⟨S262144x128, .f32⟩
  | .hbm, ⟨28, _⟩ => ⟨S262144x128, .f32⟩
  | .hbm, ⟨29, _⟩ => ⟨S1x128, .f32⟩
  | .hbm, ⟨30, _⟩ => ⟨S262144x128, .f32⟩
  | .hbm, ⟨31, _⟩ => ⟨S262144x128, .f32⟩
  | .hbm, ⟨32, _⟩ => ⟨S128x128, .f32⟩
  | .hbm, ⟨33, _⟩ => ⟨S262144x128, .f32⟩
  | .hbm, ⟨34, _⟩ => ⟨S128x128, .f32⟩
  | .hbm, ⟨35, _⟩ => ⟨S262144x128, .f32⟩
  | .hbm, ⟨36, _⟩ => ⟨S262144x128, .f32⟩
  | .hbm, ⟨37, _⟩ => ⟨S1x128, .f32⟩
  | .hbm, ⟨38, _⟩ => ⟨S262144x128, .f32⟩
  | .hbm, ⟨39, _⟩ => ⟨S262144x128, .f32⟩
  | .hbm, ⟨40, _⟩ => ⟨S128x128, .f32⟩
  | .hbm, ⟨41, _⟩ => ⟨S262144x128, .f32⟩
  | .hbm, ⟨42, _⟩ => ⟨S128x128, .f32⟩
  | .hbm, ⟨43, _⟩ => ⟨S262144x128, .f32⟩
  | .hbm, ⟨44, _⟩ => ⟨S262144x128, .f32⟩
  | .hbm, ⟨45, _⟩ => ⟨S1x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S_, .f32⟩
  | .hbm, ⟨54, _⟩ => ⟨S262144x128, .f32⟩
  | .hbm, ⟨55, _⟩ => ⟨S262144x128, .f32⟩
  | .hbm, ⟨56, _⟩ => ⟨S_, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S_, .f32⟩
  | .hbm, ⟨65, _⟩ => ⟨S262144x128, .f32⟩
  | .hbm, ⟨66, _⟩ => ⟨S262144x128, .f32⟩
  | .hbm, ⟨67, _⟩ => ⟨S_, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S262144x128, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S262144x128, .f32⟩
  | .hbm, ⟨76, _⟩ => ⟨S_, .f32⟩
  | .hbm, ⟨77, _⟩ => ⟨S262144x128, .f32⟩
  | .hbm, ⟨78, _⟩ => ⟨S262144x128, .f32⟩
  | .hbm, ⟨79, _⟩ => ⟨S262144x128, .f32⟩
  | .hbm, ⟨80, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_1 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.BitsEntry.lean ====
/-
  The region's entry. `@main` is twelve host operations followed by the one pallas_call: eight
  transposes of the 128×128 weight matrices, two concatenations of four transposes each along the
  columns (the fused 128×512 input and recurrent weights), one concatenation of the four bias
  vectors (length 512) and its reshape to a 1×512 row. This module names the contents `V` of the
  core's buffers when the pallas_call is entered, shows that none of the sixteen argument arrays is
  written before it, and states what each input window's staging buffer holds at a grid point: the
  window's block of its array, whether or not the pipeline fetched it at that point.
-/
import proofs.«423580_j58067957842088_3_alg».proof.Proof.Gen.Kernel.Launch
import proofs.«423580_j58067957842088_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The buffers when the pallas_call is entered -/

/-- Core `c`'s buffers after the twelve host operations, from the launch memory `m`. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- `@main` is the host operations, then the region, entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found as launched. -/
theorem V_kept (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! The host operations write only the twelve intermediate buffers; every argument array is as launched. -/
theorem V_main_arg0 (c : Dev nD) : V m c main_arg0 = m ((c : Thread nD τ).loc main_arg0) :=
  V_kept m c main_arg0 (by
    simp only [hostOps0, List.Forall, StableHlo.unary_writes, StableHlo.nary_writes, StableHlo.reshape_writes, Finset.mem_singleton]
    repeat' apply And.intro
    all_goals exact StableHlo.devRef_ne_of_ne (by decide))
theorem V_main_arg1 (c : Dev nD) : V m c main_arg1 = m ((c : Thread nD τ).loc main_arg1) :=
  V_kept m c main_arg1 (by
    simp only [hostOps0, List.Forall, StableHlo.unary_writes, StableHlo.nary_writes, StableHlo.reshape_writes, Finset.mem_singleton]
    repeat' apply And.intro
    all_goals exact StableHlo.devRef_ne_of_ne (by decide))
theorem V_main_arg2 (c : Dev nD) : V m c main_arg2 = m ((c : Thread nD τ).loc main_arg2) :=
  V_kept m c main_arg2 (by
    simp only [hostOps0, List.Forall, StableHlo.unary_writes, StableHlo.nary_writes, StableHlo.reshape_writes, Finset.mem_singleton]
    repeat' apply And.intro
    all_goals exact StableHlo.devRef_ne_of_ne (by decide))
theorem V_main_arg3 (c : Dev nD) : V m c main_arg3 = m ((c : Thread nD τ).loc main_arg3) :=
  V_kept m c main_arg3 (by
    simp only [hostOps0, List.Forall, StableHlo.unary_writes, StableHlo.nary_writes, StableHlo.reshape_writes, Finset.mem_singleton]
    repeat' apply And.intro
    all_goals exact StableHlo.devRef_ne_of_ne (by decide))
theorem V_main_arg4 (c : Dev nD) : V m c main_arg4 = m ((c : Thread nD τ).loc main_arg4) :=
  V_kept m c main_arg4 (by
    simp only [hostOps0, List.Forall, StableHlo.unary_writes, StableHlo.nary_writes, StableHlo.reshape_writes, Finset.mem_singleton]
    repeat' apply And.intro
    all_goals exact StableHlo.devRef_ne_of_ne (by decide))
theorem V_main_arg5 (c : Dev nD) : V m c main_arg5 = m ((c : Thread nD τ).loc main_arg5) :=
  V_kept m c main_arg5 (by
    simp only [hostOps0, List.Forall, StableHlo.unary_writes, StableHlo.nary_writes, StableHlo.reshape_writes, Finset.mem_singleton]
    repeat' apply And.intro
    all_goals exact StableHlo.devRef_ne_of_ne (by decide))
theorem V_main_arg6 (c : Dev nD) : V m c main_arg6 = m ((c : Thread nD τ).loc main_arg6) :=
  V_kept m c main_arg6 (by
    simp only [hostOps0, List.Forall, StableHlo.unary_writes, StableHlo.nary_writes, StableHlo.reshape_writes, Finset.mem_singleton]
    repeat' apply And.intro
    all_goals exact StableHlo.devRef_ne_of_ne (by decide))
theorem V_main_arg7 (c : Dev nD) : V m c main_arg7 = m ((c : Thread nD τ).loc main_arg7) :=
  V_kept m c main_arg7 (by
    simp only [hostOps0, List.Forall, StableHlo.unary_writes, StableHlo.nary_writes, StableHlo.reshape_writes, Finset.mem_singleton]
    repeat' apply And.intro
    all_goals exact StableHlo.devRef_ne_of_ne (by decide))
theorem V_main_arg8 (c : Dev nD) : V m c main_arg8 = m ((c : Thread nD τ).loc main_arg8) :=
  V_kept m c main_arg8 (by
    simp only [hostOps0, List.Forall, StableHlo.unary_writes, StableHlo.nary_writes, StableHlo.reshape_writes, Finset.mem_singleton]
    repeat' apply And.intro
    all_goals exact StableHlo.devRef_ne_of_ne (by decide))
theorem V_main_arg9 (c : Dev nD) : V m c main_arg9 = m ((c : Thread nD τ).loc main_arg9) :=
  V_kept m c main_arg9 (by
    simp only [hostOps0, List.Forall, StableHlo.unary_writes, StableHlo.nary_writes, StableHlo.reshape_writes, Finset.mem_singleton]
    repeat' apply And.intro
    all_goals exact StableHlo.devRef_ne_of_ne (by decide))
theorem V_main_arg10 (c : Dev nD) : V m c main_arg10 = m ((c : Thread nD τ).loc main_arg10) :=
  V_kept m c main_arg10 (by
    simp only [hostOps0, List.Forall, StableHlo.unary_writes, StableHlo.nary_writes, StableHlo.reshape_writes, Finset.mem_singleton]
    repeat' apply And.intro
    all_goals exact StableHlo.devRef_ne_of_ne (by decide))
theorem V_main_arg11 (c : Dev nD) : V m c main_arg11 = m ((c : Thread nD τ).loc main_arg11) :=
  V_kept m c main_arg11 (by
    simp only [hostOps0, List.Forall, StableHlo.unary_writes, StableHlo.nary_writes, StableHlo.reshape_writes, Finset.mem_singleton]
    repeat' apply And.intro
    all_goals exact StableHlo.devRef_ne_of_ne (by decide))
theorem V_main_arg12 (c : Dev nD) : V m c main_arg12 = m ((c : Thread nD τ).loc main_arg12) :=
  V_kept m c main_arg12 (by
    simp only [hostOps0, List.Forall, StableHlo.unary_writes, StableHlo.nary_writes, StableHlo.reshape_writes, Finset.mem_singleton]
    repeat' apply And.intro
    all_goals exact StableHlo.devRef_ne_of_ne (by decide))
theorem V_main_arg13 (c : Dev nD) : V m c main_arg13 = m ((c : Thread nD τ).loc main_arg13) :=
  V_kept m c main_arg13 (by
    simp only [hostOps0, List.Forall, StableHlo.unary_writes, StableHlo.nary_writes, StableHlo.reshape_writes, Finset.mem_singleton]
    repeat' apply And.intro
    all_goals exact StableHlo.devRef_ne_of_ne (by decide))
theorem V_main_arg14 (c : Dev nD) : V m c main_arg14 = m ((c : Thread nD τ).loc main_arg14) :=
  V_kept m c main_arg14 (by
    simp only [hostOps0, List.Forall, StableHlo.unary_writes, StableHlo.nary_writes, StableHlo.reshape_writes, Finset.mem_singleton]
    repeat' apply And.intro
    all_goals exact StableHlo.devRef_ne_of_ne (by decide))
theorem V_main_arg15 (c : Dev nD) : V m c main_arg15 = m ((c : Thread nD τ).loc main_arg15) :=
  V_kept m c main_arg15 (by
    simp only [hostOps0, List.Forall, StableHlo.unary_writes, StableHlo.nary_writes, StableHlo.reshape_writes, Finset.mem_singleton]
    repeat' apply And.intro
    all_goals exact StableHlo.devRef_ne_of_ne (by decide))

/-! ## The windows' blocks -/

/-- Window `w`'s block at grid point `t`, read off its array as the pallas_call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! Each of the seven input windows is whole and live at every point, so for any proof data over the
    arrays `V` whose body leaves the input blocks in place, the current staging buffer holds the
    window's block at every point: fetched there, or kept from the point before with the block index
    unmoved (the three weight windows are fetched once, at the first point). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c)
    (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)

end Cert.Kernel.Region

end
-- ==== Proof.BitsBody.lean ====
/-
  The kernel body as a step on the staging buffers. At one grid point the body reads a 2048-row
  block of each of `x`, `h_prev`, `c_prev`, `n_prev`, the two fused 128×512 weight matrices and
  the 1×512 bias row, and overwrites the three 2048×128 output blocks whole. So each output buffer
  ends at one pure function of the seven input blocks: the new hidden state `hNew`, the new cell
  state `cNew` and the new normaliser `nNew`. The input buffers are only read.
-/
import proofs.«423580_j58067957842088_3_alg».proof.Proof.Gen.Kernel.Launch
import proofs.«423580_j58067957842088_3_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three outputs as functions of the input blocks -/

/-- The new hidden state `o · (c' / (n' + ε))` of a block. -/
def hNew (x0 x1 x2 x3 : Vec F S2048x128 .f32) (x4 x5 : Vec F S128x512 .f32) (x6 : Vec F S1x512 .f32) : Vec F S2048x128 .f32 :=
  k0_pay9 x0 x1 x2 x3 x4 x5 x6
/-- The new cell state `f · c + i · z` of a block (it does not read `n_prev`). -/
def cNew (x0 x1 x2 x3 : Vec F S2048x128 .f32) (x4 x5 : Vec F S128x512 .f32) (x6 : Vec F S1x512 .f32) : Vec F S2048x128 .f32 :=
  k0_pay7 x0 x1 x2 x4 x5 x6
/-- The new normaliser `f · n + i` of a block (it does not read `c_prev`). -/
def nNew (x0 x1 x2 x3 : Vec F S2048x128 .f32) (x4 x5 : Vec F S128x512 .f32) (x6 : Vec F S1x512 .f32) : Vec F S2048x128 .f32 :=
  k0_pay8 x0 x1 x3 x4 x5 x6

/-- The offset of every access of the body: the origin. -/
theorem origin2 : (![0, 0] : Fin 2 → Nat) = fun _ => 0 := by
  funext a; fin_cases a <;> rfl

/-- One store of a whole 2048×128 block covers the block. -/
theorem whole_cover (p0 : Vec F S2048x128 .f32) (y : S2048x128.Idx) :
    ∃ pc ∈ ([⟨Rect.unit (s := S2048x128) ![0, 0] S2048x128.size inb_S2048x128_S2048x128_0_0, p0⟩] :
      List (View.Piece (Elt F) S2048x128 .f32)), y ∈ pc.1.set :=
  View.cover_of_tiled [⟨Rect.unit (s := S2048x128) ![0, 0] S2048x128.size inb_S2048x128_S2048x128_0_0, p0⟩] S2048x128.size (by rfl) y

/-- A buffer overwritten whole by one store holds the stored value. -/
theorem read_whole_store {κ : Kind} {sp : Space} (v : View sig κ sp S2048x128 .f32) (f : v.ty.Contents (Elt F))
    (p0 : Vec F S2048x128 .f32) :
    v.read (Elt F) (v.writes (Elt F) f
      [⟨Rect.unit (s := S2048x128) ![0, 0] S2048x128.size inb_S2048x128_S2048x128_0_0, p0⟩]) = p0 :=
  (View.read_writes_eq_canon _ _ _ (whole_cover p0)).trans (View.canon_unit_zero origin2 _ p0)

/-! ## The body's step -/

set_option maxHeartbeats 1000000 in
/-- On whole staging buffers, the seven inputs' at contents `x0 … x6` and the three outputs' at anything, the body
    runs to its continuation with the inputs' as they were and the outputs' at `hNew`, `cNew`, `nNew` of them. -/
theorem sound_kernel (c : Dev nD) (E : Set ℕ) (i : grid0.Coords) (a1 : Memref sig .tc .vmem S2048x128 .f32) (ha1 : a1.IsWhole) (a2 : Memref sig .tc .vmem S2048x128 .f32) (ha2 : a2.IsWhole) (a3 : Memref sig .tc .vmem S2048x128 .f32) (ha3 : a3.IsWhole) (a4 : Memref sig .tc .vmem S2048x128 .f32) (ha4 : a4.IsWhole) (a5 : Memref sig .tc .vmem S128x512 .f32) (ha5 : a5.IsWhole) (a6 : Memref sig .tc .vmem S128x512 .f32) (ha6 : a6.IsWhole) (a7 : Memref sig .tc .vmem S1x512 .f32) (ha7 : a7.IsWhole) (a8 : Memref sig .tc .vmem S2048x128 .f32) (ha8 : a8.IsWhole) (a9 : Memref sig .tc .vmem S2048x128 .f32) (ha9 : a9.IsWhole) (a10 : Memref sig .tc .vmem S2048x128 .f32) (ha10 : a10.IsWhole)
    (x0 x1 x2 x3 : Vec F S2048x128 .f32) (x4 x5 : Vec F S128x512 .f32) (x6 : Vec F S1x512 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
            ∗ owns (c : Thread nD τ) a8 fullShare (hNew x0 x1 x2 x3 x4 x5 x6) ∗ owns (c : Thread nD τ) a9 fullShare (cNew x0 x1 x2 x3 x4 x5 x6) ∗ owns (c : Thread nD τ) a10 fullShare (nNew x0 x1 x2 x3 x4 x5 x6)) -∗ K ⟨⟩))
      ⊢ wp frame (wpE (defs₀ (F := F)) Variants.none c none) E (cc0__slstm_kernel i a1 ha1 a2 ha2 a3 ha3 a4 ha4 a5 ha5 a6 ha6 a7 ha7 a8 ha8 a9 ha9 a10 ha10) K := by
  simp only [cc0__slstm_kernel_eq_skeleton]; unfold cc0__slstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    dsimp only
    refine (read_whole_store _ _ _).trans ?_
    unfold hNew
    simp only [View.readAt_eq_ld, View.ld_unit_zero (S := S2048x128) origin2, View.ld_unit_zero (S := S128x512) origin2, View.ld_unit_zero (S := S1x512) origin2]
  isplitl [H8]
  · iexists _; isplitr
    swap; · iexact H8
    ipureintro
    dsimp only
    refine (read_whole_store _ _ _).trans ?_
    unfold cNew
    simp only [View.readAt_eq_ld, View.ld_unit_zero (S := S2048x128) origin2, View.ld_unit_zero (S := S128x512) origin2, View.ld_unit_zero (S := S1x512) origin2]
  iexists _; isplitr
  swap; · iexact H9
  ipureintro
  dsimp only
  refine (read_whole_store _ _ _).trans ?_
  unfold nNew
  simp only [View.readAt_eq_ld, View.ld_unit_zero (S := S2048x128) origin2, View.ld_unit_zero (S := S128x512) origin2, View.ld_unit_zero (S := S1x512) origin2]

end Cert.Kernel.Region

end
-- ==== Proof.BitsRun.lean ====
/-
  The run of the whole program. The proof data says what each staging buffer holds after the body at
  a grid point: an input's its block, untouched, and the three outputs' the new hidden state, cell
  state and normaliser of the point's seven input blocks. With the body's step at a generic point
  this gives the launch: every execution of `@main` ends, without a fault, with each output array
  equal to what the write-backs of all 128 points leave (`arrAt`), and every argument array as it was
  launched. The frame claim forgets the outputs.
-/
import proofs.«423580_j58067957842088_3_alg».proof.Proof.BitsEntry
import proofs.«423580_j58067957842088_3_alg».proof.Proof.BitsBody

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the pallas_call finds them; after the body at point `t` every input buffer at its
    block and the output buffers at `hNew`, `cNew`, `nNew` of the seven blocks; the invariant the scoped rest and
    the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hNew (iblk m c 0 t) (iblk m c 1 t) (iblk m c 2 t) (iblk m c 3 t) (iblk m c 4 t) (iblk m c 5 t) (iblk m c 6 t)
    | ⟨8, _⟩ => cNew (iblk m c 0 t) (iblk m c 1 t) (iblk m c 2 t) (iblk m c 3 t) (iblk m c 4 t) (iblk m c 5 t) (iblk m c 6 t)
    | ⟨9, _⟩ => nNew (iblk m c 0 t) (iblk m c 1 t) (iblk m c 2 t) (iblk m c 3 t) (iblk m c 4 t) (iblk m c 5 t) (iblk m c 6 t)
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = hNew (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = cNew (iblk m c 0 t) (iblk m c 1 t) (iblk m c 2 t) (iblk m c 3 t) (iblk m c 4 t) (iblk m c 5 t) (iblk m c 6 t) := by dsimp only [dats]
theorem after9 (c : Dev nD) (t : Fin cfg0.N) : (dats m 0 c).after 9 t = nNew (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body at a generic point -/

/-- What the pipeline hands the body at point `t`, the ten windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The input buffers hold their blocks, so the body's step applies; the invariant and what the core owes pass by. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of `@main` terminates, and in every final state each array of the pipeline holds
    what the write-backs leave and every other buffer what the pallas_call found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with its arrays named: the three results at what the 128 write-backs leave, the sixteen
    arguments as launched (four are input windows' arrays, twelve are read only by the host operations). -/
theorem run_named : θ_run defs (onTc (τ := τ) (main (F := F))) ⟨m, fun _ => 0, ρ⟩ (fun r => ∀ c : Dev nD,
      r.2.mem ((c.tc : Thread nD τ).loc main_v12_0) = (dats m 0 c).arrAt 7 cfg0.N
      ∧ r.2.mem ((c.tc : Thread nD τ).loc main_v12_1) = (dats m 0 c).arrAt 8 cfg0.N
      ∧ r.2.mem ((c.tc : Thread nD τ).loc main_v12_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) (run_main m ρ)

/-- The frame: the program runs to the end and leaves its sixteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2.2.2) (run_named m ρ)

end Cert.Kernel.Region

end
-- ==== Proof.IdealEntry.lean ====
/-
  The region's entry. `@main` is twelve host operations followed by the one pallas_call: eight
  transposes of the 128×128 weight matrices, two concatenations of four transposes each along the
  columns (the fused 128×512 input and recurrent weights), one concatenation of the four bias
  vectors (length 512) and its reshape to a 1×512 row. This module names the contents `V` of the
  core's buffers when the pallas_call is entered, shows that none of the sixteen argument arrays is
  written before it, and states what each input window's staging buffer holds at a grid point: the
  window's block of its array, whether or not the pipeline fetched it at that point.
-/
import proofs.«423580_j58067957842088_3_alg».proof.Proof.Gen.KernelIdeal.Launch
import proofs.«423580_j58067957842088_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The buffers when the pallas_call is entered -/

/-- Core `c`'s buffers after the twelve host operations, from the launch memory `m`. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- `@main` is the host operations, then the region, entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found as launched. -/
theorem V_kept (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! The host operations write only the twelve intermediate buffers; every argument array is as launched. -/
theorem V_main_arg0 (c : Dev nD) : V m c main_arg0 = m ((c : Thread nD τ).loc main_arg0) :=
  V_kept m c main_arg0 (by
    simp only [hostOps0, List.Forall, StableHlo.unary_writes, StableHlo.nary_writes, StableHlo.reshape_writes, Finset.mem_singleton]
    repeat' apply And.intro
    all_goals exact StableHlo.devRef_ne_of_ne (by decide))
theorem V_main_arg1 (c : Dev nD) : V m c main_arg1 = m ((c : Thread nD τ).loc main_arg1) :=
  V_kept m c main_arg1 (by
    simp only [hostOps0, List.Forall, StableHlo.unary_writes, StableHlo.nary_writes, StableHlo.reshape_writes, Finset.mem_singleton]
    repeat' apply And.intro
    all_goals exact StableHlo.devRef_ne_of_ne (by decide))
theorem V_main_arg2 (c : Dev nD) : V m c main_arg2 = m ((c : Thread nD τ).loc main_arg2) :=
  V_kept m c main_arg2 (by
    simp only [hostOps0, List.Forall, StableHlo.unary_writes, StableHlo.nary_writes, StableHlo.reshape_writes, Finset.mem_singleton]
    repeat' apply And.intro
    all_goals exact StableHlo.devRef_ne_of_ne (by decide))
theorem V_main_arg3 (c : Dev nD) : V m c main_arg3 = m ((c : Thread nD τ).loc main_arg3) :=
  V_kept m c main_arg3 (by
    simp only [hostOps0, List.Forall, StableHlo.unary_writes, StableHlo.nary_writes, StableHlo.reshape_writes, Finset.mem_singleton]
    repeat' apply And.intro
    all_goals exact StableHlo.devRef_ne_of_ne (by decide))
theorem V_main_arg4 (c : Dev nD) : V m c main_arg4 = m ((c : Thread nD τ).loc main_arg4) :=
  V_kept m c main_arg4 (by
    simp only [hostOps0, List.Forall, StableHlo.unary_writes, StableHlo.nary_writes, StableHlo.reshape_writes, Finset.mem_singleton]
    repeat' apply And.intro
    all_goals exact StableHlo.devRef_ne_of_ne (by decide))
theorem V_main_arg5 (c : Dev nD) : V m c main_arg5 = m ((c : Thread nD τ).loc main_arg5) :=
  V_kept m c main_arg5 (by
    simp only [hostOps0, List.Forall, StableHlo.unary_writes, StableHlo.nary_writes, StableHlo.reshape_writes, Finset.mem_singleton]
    repeat' apply And.intro
    all_goals exact StableHlo.devRef_ne_of_ne (by decide))
theorem V_main_arg6 (c : Dev nD) : V m c main_arg6 = m ((c : Thread nD τ).loc main_arg6) :=
  V_kept m c main_arg6 (by
    simp only [hostOps0, List.Forall, StableHlo.unary_writes, StableHlo.nary_writes, StableHlo.reshape_writes, Finset.mem_singleton]
    repeat' apply And.intro
    all_goals exact StableHlo.devRef_ne_of_ne (by decide))
theorem V_main_arg7 (c : Dev nD) : V m c main_arg7 = m ((c : Thread nD τ).loc main_arg7) :=
  V_kept m c main_arg7 (by
    simp only [hostOps0, List.Forall, StableHlo.unary_writes, StableHlo.nary_writes, StableHlo.reshape_writes, Finset.mem_singleton]
    repeat' apply And.intro
    all_goals exact StableHlo.devRef_ne_of_ne (by decide))
theorem V_main_arg8 (c : Dev nD) : V m c main_arg8 = m ((c : Thread nD τ).loc main_arg8) :=
  V_kept m c main_arg8 (by
    simp only [hostOps0, List.Forall, StableHlo.unary_writes, StableHlo.nary_writes, StableHlo.reshape_writes, Finset.mem_singleton]
    repeat' apply And.intro
    all_goals exact StableHlo.devRef_ne_of_ne (by decide))
theorem V_main_arg9 (c : Dev nD) : V m c main_arg9 = m ((c : Thread nD τ).loc main_arg9) :=
  V_kept m c main_arg9 (by
    simp only [hostOps0, List.Forall, StableHlo.unary_writes, StableHlo.nary_writes, StableHlo.reshape_writes, Finset.mem_singleton]
    repeat' apply And.intro
    all_goals exact StableHlo.devRef_ne_of_ne (by decide))
theorem V_main_arg10 (c : Dev nD) : V m c main_arg10 = m ((c : Thread nD τ).loc main_arg10) :=
  V_kept m c main_arg10 (by
    simp only [hostOps0, List.Forall, StableHlo.unary_writes, StableHlo.nary_writes, StableHlo.reshape_writes, Finset.mem_singleton]
    repeat' apply And.intro
    all_goals exact StableHlo.devRef_ne_of_ne (by decide))
theorem V_main_arg11 (c : Dev nD) : V m c main_arg11 = m ((c : Thread nD τ).loc main_arg11) :=
  V_kept m c main_arg11 (by
    simp only [hostOps0, List.Forall, StableHlo.unary_writes, StableHlo.nary_writes, StableHlo.reshape_writes, Finset.mem_singleton]
    repeat' apply And.intro
    all_goals exact StableHlo.devRef_ne_of_ne (by decide))
theorem V_main_arg12 (c : Dev nD) : V m c main_arg12 = m ((c : Thread nD τ).loc main_arg12) :=
  V_kept m c main_arg12 (by
    simp only [hostOps0, List.Forall, StableHlo.unary_writes, StableHlo.nary_writes, StableHlo.reshape_writes, Finset.mem_singleton]
    repeat' apply And.intro
    all_goals exact StableHlo.devRef_ne_of_ne (by decide))
theorem V_main_arg13 (c : Dev nD) : V m c main_arg13 = m ((c : Thread nD τ).loc main_arg13) :=
  V_kept m c main_arg13 (by
    simp only [hostOps0, List.Forall, StableHlo.unary_writes, StableHlo.nary_writes, StableHlo.reshape_writes, Finset.mem_singleton]
    repeat' apply And.intro
    all_goals exact StableHlo.devRef_ne_of_ne (by decide))
theorem V_main_arg14 (c : Dev nD) : V m c main_arg14 = m ((c : Thread nD τ).loc main_arg14) :=
  V_kept m c main_arg14 (by
    simp only [hostOps0, List.Forall, StableHlo.unary_writes, StableHlo.nary_writes, StableHlo.reshape_writes, Finset.mem_singleton]
    repeat' apply And.intro
    all_goals exact StableHlo.devRef_ne_of_ne (by decide))
theorem V_main_arg15 (c : Dev nD) : V m c main_arg15 = m ((c : Thread nD τ).loc main_arg15) :=
  V_kept m c main_arg15 (by
    simp only [hostOps0, List.Forall, StableHlo.unary_writes, StableHlo.nary_writes, StableHlo.reshape_writes, Finset.mem_singleton]
    repeat' apply And.intro
    all_goals exact StableHlo.devRef_ne_of_ne (by decide))

/-! ## The windows' blocks -/

/-- Window `w`'s block at grid point `t`, read off its array as the pallas_call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! Each of the seven input windows is whole and live at every point, so for any proof data over the
    arrays `V` whose body leaves the input blocks in place, the current staging buffer holds the
    window's block at every point: fetched there, or kept from the point before with the block index
    unmoved (the three weight windows are fetched once, at the first point). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c)
    (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)

end Cert.KernelIdeal.Region

end
-- ==== Proof.IdealBody.lean ====
/-
  The kernel body as a step on the staging buffers. At one grid point the body reads a 2048-row
  block of each of `x`, `h_prev`, `c_prev`, `n_prev`, the two fused 128×512 weight matrices and
  the 1×512 bias row, and overwrites the three 2048×128 output blocks whole. So each output buffer
  ends at one pure function of the seven input blocks: the new hidden state `hNew`, the new cell
  state `cNew` and the new normaliser `nNew`. The input buffers are only read.
-/
import proofs.«423580_j58067957842088_3_alg».proof.Proof.Gen.KernelIdeal.Launch
import proofs.«423580_j58067957842088_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three outputs as functions of the input blocks -/

/-- The new hidden state `o · (c' / (n' + ε))` of a block. -/
def hNew (x0 x1 x2 x3 : Vec F S2048x128 .f32) (x4 x5 : Vec F S128x512 .f32) (x6 : Vec F S1x512 .f32) : Vec F S2048x128 .f32 :=
  k0_pay9 x0 x1 x2 x3 x4 x5 x6
/-- The new cell state `f · c + i · z` of a block (it does not read `n_prev`). -/
def cNew (x0 x1 x2 x3 : Vec F S2048x128 .f32) (x4 x5 : Vec F S128x512 .f32) (x6 : Vec F S1x512 .f32) : Vec F S2048x128 .f32 :=
  k0_pay7 x0 x1 x2 x4 x5 x6
/-- The new normaliser `f · n + i` of a block (it does not read `c_prev`). -/
def nNew (x0 x1 x2 x3 : Vec F S2048x128 .f32) (x4 x5 : Vec F S128x512 .f32) (x6 : Vec F S1x512 .f32) : Vec F S2048x128 .f32 :=
  k0_pay8 x0 x1 x3 x4 x5 x6

/-- The offset of every access of the body: the origin. -/
theorem origin2 : (![0, 0] : Fin 2 → Nat) = fun _ => 0 := by
  funext a; fin_cases a <;> rfl

/-- One store of a whole 2048×128 block covers the block. -/
theorem whole_cover (p0 : Vec F S2048x128 .f32) (y : S2048x128.Idx) :
    ∃ pc ∈ ([⟨Rect.unit (s := S2048x128) ![0, 0] S2048x128.size inb_S2048x128_S2048x128_0_0, p0⟩] :
      List (View.Piece (Elt F) S2048x128 .f32)), y ∈ pc.1.set :=
  View.cover_of_tiled [⟨Rect.unit (s := S2048x128) ![0, 0] S2048x128.size inb_S2048x128_S2048x128_0_0, p0⟩] S2048x128.size (by rfl) y

/-- A buffer overwritten whole by one store holds the stored value. -/
theorem read_whole_store {κ : Kind} {sp : Space} (v : View sig κ sp S2048x128 .f32) (f : v.ty.Contents (Elt F))
    (p0 : Vec F S2048x128 .f32) :
    v.read (Elt F) (v.writes (Elt F) f
      [⟨Rect.unit (s := S2048x128) ![0, 0] S2048x128.size inb_S2048x128_S2048x128_0_0, p0⟩]) = p0 :=
  (View.read_writes_eq_canon _ _ _ (whole_cover p0)).trans (View.canon_unit_zero origin2 _ p0)

/-! ## The body's step -/

set_option maxHeartbeats 1000000 in
/-- On whole staging buffers, the seven inputs' at contents `x0 … x6` and the three outputs' at anything, the body
    runs to its continuation with the inputs' as they were and the outputs' at `hNew`, `cNew`, `nNew` of them. -/
theorem sound_kernel (c : Dev nD) (E : Set ℕ) (i : grid0.Coords) (a1 : Memref sig .tc .vmem S2048x128 .f32) (ha1 : a1.IsWhole) (a2 : Memref sig .tc .vmem S2048x128 .f32) (ha2 : a2.IsWhole) (a3 : Memref sig .tc .vmem S2048x128 .f32) (ha3 : a3.IsWhole) (a4 : Memref sig .tc .vmem S2048x128 .f32) (ha4 : a4.IsWhole) (a5 : Memref sig .tc .vmem S128x512 .f32) (ha5 : a5.IsWhole) (a6 : Memref sig .tc .vmem S128x512 .f32) (ha6 : a6.IsWhole) (a7 : Memref sig .tc .vmem S1x512 .f32) (ha7 : a7.IsWhole) (a8 : Memref sig .tc .vmem S2048x128 .f32) (ha8 : a8.IsWhole) (a9 : Memref sig .tc .vmem S2048x128 .f32) (ha9 : a9.IsWhole) (a10 : Memref sig .tc .vmem S2048x128 .f32) (ha10 : a10.IsWhole)
    (x0 x1 x2 x3 : Vec F S2048x128 .f32) (x4 x5 : Vec F S128x512 .f32) (x6 : Vec F S1x512 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6
            ∗ owns (c : Thread nD τ) a8 fullShare (hNew x0 x1 x2 x3 x4 x5 x6) ∗ owns (c : Thread nD τ) a9 fullShare (cNew x0 x1 x2 x3 x4 x5 x6) ∗ owns (c : Thread nD τ) a10 fullShare (nNew x0 x1 x2 x3 x4 x5 x6)) -∗ K ⟨⟩))
      ⊢ wp frame (wpE (defs₀ (F := F)) Variants.none c none) E (cc0__slstm_kernel i a1 ha1 a2 ha2 a3 ha3 a4 ha4 a5 ha5 a6 ha6 a7 ha7 a8 ha8 a9 ha9 a10 ha10) K := by
  simp only [cc0__slstm_kernel_eq_skeleton]; unfold cc0__slstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    dsimp only
    refine (read_whole_store _ _ _).trans ?_
    unfold hNew
    simp only [View.readAt_eq_ld, View.ld_unit_zero (S := S2048x128) origin2, View.ld_unit_zero (S := S128x512) origin2, View.ld_unit_zero (S := S1x512) origin2]
  isplitl [H8]
  · iexists _; isplitr
    swap; · iexact H8
    ipureintro
    dsimp only
    refine (read_whole_store _ _ _).trans ?_
    unfold cNew
    simp only [View.readAt_eq_ld, View.ld_unit_zero (S := S2048x128) origin2, View.ld_unit_zero (S := S128x512) origin2, View.ld_unit_zero (S := S1x512) origin2]
  iexists _; isplitr
  swap; · iexact H9
  ipureintro
  dsimp only
  refine (read_whole_store _ _ _).trans ?_
  unfold nNew
  simp only [View.readAt_eq_ld, View.ld_unit_zero (S := S2048x128) origin2, View.ld_unit_zero (S := S128x512) origin2, View.ld_unit_zero (S := S1x512) origin2]

end Cert.KernelIdeal.Region

end
-- ==== Proof.IdealRun.lean ====
/-
  The run of the whole program. The proof data says what each staging buffer holds after the body at
  a grid point: an input's its block, untouched, and the three outputs' the new hidden state, cell
  state and normaliser of the point's seven input blocks. With the body's step at a generic point
  this gives the launch: every execution of `@main` ends, without a fault, with each output array
  equal to what the write-backs of all 128 points leave (`arrAt`), and every argument array as it was
  launched. The frame claim forgets the outputs.
-/
import proofs.«423580_j58067957842088_3_alg».proof.Proof.IdealEntry
import proofs.«423580_j58067957842088_3_alg».proof.Proof.IdealBody

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the pallas_call finds them; after the body at point `t` every input buffer at its
    block and the output buffers at `hNew`, `cNew`, `nNew` of the seven blocks; the invariant the scoped rest and
    the generator register, untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hNew (iblk m c 0 t) (iblk m c 1 t) (iblk m c 2 t) (iblk m c 3 t) (iblk m c 4 t) (iblk m c 5 t) (iblk m c 6 t)
    | ⟨8, _⟩ => cNew (iblk m c 0 t) (iblk m c 1 t) (iblk m c 2 t) (iblk m c 3 t) (iblk m c 4 t) (iblk m c 5 t) (iblk m c 6 t)
    | ⟨9, _⟩ => nNew (iblk m c 0 t) (iblk m c 1 t) (iblk m c 2 t) (iblk m c 3 t) (iblk m c 4 t) (iblk m c 5 t) (iblk m c 6 t)
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = hNew (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = cNew (iblk m c 0 t) (iblk m c 1 t) (iblk m c 2 t) (iblk m c 3 t) (iblk m c 4 t) (iblk m c 5 t) (iblk m c 6 t) := by dsimp only [dats]
theorem after9 (c : Dev nD) (t : Fin cfg0.N) : (dats m 0 c).after 9 t = nNew (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body at a generic point -/

/-- What the pipeline hands the body at point `t`, the ten windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The input buffers hold their blocks, so the body's step applies; the invariant and what the core owes pass by. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of `@main` terminates, and in every final state each array of the pipeline holds
    what the write-backs leave and every other buffer what the pallas_call found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with its arrays named: the three results at what the 128 write-backs leave, the sixteen
    arguments as launched (four are input windows' arrays, twelve are read only by the host operations). -/
theorem run_named : θ_run defs (onTc (τ := τ) (main (F := F))) ⟨m, fun _ => 0, ρ⟩ (fun r => ∀ c : Dev nD,
      r.2.mem ((c.tc : Thread nD τ).loc main_v12_0) = (dats m 0 c).arrAt 7 cfg0.N
      ∧ r.2.mem ((c.tc : Thread nD τ).loc main_v12_1) = (dats m 0 c).arrAt 8 cfg0.N
      ∧ r.2.mem ((c.tc : Thread nD τ).loc main_v12_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) (run_main m ρ)

/-- The frame: the program runs to the end and leaves its sixteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2.2.2) (run_named m ρ)

end Cert.KernelIdeal.Region

end
-- ==== Proof.Cell.lean ====
/-
  One step of the stabilised sLSTM cell, entry by entry, on the extended reals.

  For batch row `r` and hidden unit `j` each of the four gates (input, forget, output, cell input)
  has the pre-activation

      g̃ = Σₖ x[r,k] · W_g[j,k] + Σₖ h[r,k] · U_g[j,k] + b_g[j] .

  With `m = max f̃ ĩ` the cell forms `i = exp (ĩ − m)`, `f = σ f̃ + exp (f̃ − m)`, `o = σ õ`,
  `z = tanh z̃`, and returns

      c' = f · c + i · z ,     n' = f · n + i ,     h' = o · (c' / (n' + ε)) ,

  where `ε` is the single-precision number nearest to 1e-8 and `σ x = 1 / (1 + exp (−x))`. Both
  programs of this certificate compute exactly these three arrays; the only difference in spelling is
  that one of them writes `σ` out as a quotient with the constant one.
-/
import Idealize.ShloMosaic.PureOps.Ideal
import Idealize.ShloMosaic.Lib.ValueIdx

noncomputable section

open scoped BigOperators

namespace Cert.Cell

open Idealize.ShloMosaic Idealize.ShloMosaic.ValueIdx

/-- The batch arrays (262144 rows of 128), the weight matrices (128 × 128) and the bias vectors (128). -/
abbrev Rows : Shape := ⟨2, ![262144, 128]⟩
abbrev Mat : Shape := ⟨2, ![128, 128]⟩
abbrev Bias : Shape := ⟨1, ![128]⟩

/-- The stabiliser under the quotient: the float nearest 1e-8, as both programs spell it. -/
def eps : EReal := Ideal.ofBits .f32 0x322BCC77#32

/-- A gate's pre-activation from one row of `x` and of `h`, the unit's rows of the two weight matrices, and its bias. -/
def pre (x h w u : Fin 128 → EReal) (b : EReal) : EReal :=
  (∑ k : Fin 128, x k * w k) + (∑ k : Fin 128, h k * u k) + b

/-- The new cell state from the input, forget and cell-input pre-activations and the old cell state. -/
def cNext (i f z c : EReal) : EReal :=
  (Ideal.logistic f + Ideal.exp (f - max f i)) * c + Ideal.exp (i - max f i) * Ideal.tanh z

/-- The new normaliser from the input and forget pre-activations and the old normaliser. -/
def nNext (i f n : EReal) : EReal :=
  (Ideal.logistic f + Ideal.exp (f - max f i)) * n + Ideal.exp (i - max f i)

/-- The new hidden state: the output gate times the normalised cell state. -/
def hNext (i f o z c n : EReal) : EReal :=
  Ideal.logistic o * Ideal.div (cNext i f z c) (nNext i f n + eps)

/-- The word of the float `1.0` denotes one. -/
theorem one_word : Ideal.ofBits .f32 0x3F800000#32 = 1 := by
  simp [Ideal.ofBits, Ideal.ieee, -EReal.coe_mul]; norm_num

/-- The sigmoid written out as `1 / (1 + exp (−x))` over the float one is the sigmoid, at every extended real:
    it is the definition, once the word is read. -/
theorem logistic_spelled (x : EReal) :
    Ideal.div (Ideal.ofBits .f32 0x3F800000#32) (Ideal.ofBits .f32 0x3F800000#32 + Ideal.exp (-x)) = Ideal.logistic x := by
  rw [one_word]; rfl

/-! ## The three arrays -/

/-- Gate pre-activation at row `r`, unit `j`, from the whole arrays. -/
def gate (X H : Rows.Idx → EReal) (W U : Mat.Idx → EReal) (b : Bias.Idx → EReal) (r : Fin 262144) (j : Fin 128) : EReal :=
  pre (fun k => X (ix2 r k)) (fun k => H (ix2 r k)) (fun k => W (ix2 j k)) (fun k => U (ix2 j k)) (b (ix1 j))

section Arrays

variable (X H C N : Rows.Idx → EReal) (Wi Ui Wf Uf Wo Uo Wz Uz : Mat.Idx → EReal) (bi bf bo bz : Bias.Idx → EReal)

/-- The new cell state at row `r`, unit `j`. -/
def cAt (r : Fin 262144) (j : Fin 128) : EReal :=
  cNext (gate X H Wi Ui bi r j) (gate X H Wf Uf bf r j) (gate X H Wz Uz bz r j) (C (ix2 r j))
/-- The new normaliser at row `r`, unit `j`. -/
def nAt (r : Fin 262144) (j : Fin 128) : EReal :=
  nNext (gate X H Wi Ui bi r j) (gate X H Wf Uf bf r j) (N (ix2 r j))
/-- The new hidden state at row `r`, unit `j`. -/
def hAt (r : Fin 262144) (j : Fin 128) : EReal :=
  hNext (gate X H Wi Ui bi r j) (gate X H Wf Uf bf r j) (gate X H Wo Uo bo r j) (gate X H Wz Uz bz r j)
    (C (ix2 r j)) (N (ix2 r j))

/-- The three result arrays, as functions of the sixteen argument arrays. -/
def hArr : Rows.Idx → EReal := fun y => hAt X H C N Wi Ui Wf Uf Wo Uo Wz Uz bi bf bo bz (y 0) (y 1)
def cArr : Rows.Idx → EReal := fun y => cAt X H C Wi Ui Wf Uf Wz Uz bi bf bz (y 0) (y 1)
def nArr : Rows.Idx → EReal := fun y => nAt X H N Wi Ui Wf Uf bi bf (y 0) (y 1)

end Arrays

/-! ## The arrays depend only on their arguments

Two launches that agree on the arguments give the same three arrays. -/

theorem hArr_congr {X X' H H' C C' N N' : Rows.Idx → EReal} {Wi Wi' Ui Ui' Wf Wf' Uf Uf' Wo Wo' Uo Uo' Wz Wz' Uz Uz' : Mat.Idx → EReal}
    {bi bi' bf bf' bo bo' bz bz' : Bias.Idx → EReal}
    (e0 : X' = X) (e1 : H' = H) (e2 : C' = C) (e3 : N' = N) (e4 : Wi' = Wi) (e5 : Ui' = Ui) (e6 : Wf' = Wf) (e7 : Uf' = Uf)
    (e8 : Wo' = Wo) (e9 : Uo' = Uo) (e10 : Wz' = Wz) (e11 : Uz' = Uz) (e12 : bi' = bi) (e13 : bf' = bf) (e14 : bo' = bo) (e15 : bz' = bz) :
    hArr X' H' C' N' Wi' Ui' Wf' Uf' Wo' Uo' Wz' Uz' bi' bf' bo' bz' = hArr X H C N Wi Ui Wf Uf Wo Uo Wz Uz bi bf bo bz := by
  subst e0 e1 e2 e3 e4 e5 e6 e7 e8 e9 e10 e11 e12 e13 e14 e15; rfl

theorem cArr_congr {X X' H H' C C' : Rows.Idx → EReal} {Wi Wi' Ui Ui' Wf Wf' Uf Uf' Wz Wz' Uz Uz' : Mat.Idx → EReal}
    {bi bi' bf bf' bz bz' : Bias.Idx → EReal}
    (e0 : X' = X) (e1 : H' = H) (e2 : C' = C) (e4 : Wi' = Wi) (e5 : Ui' = Ui) (e6 : Wf' = Wf) (e7 : Uf' = Uf)
    (e10 : Wz' = Wz) (e11 : Uz' = Uz) (e12 : bi' = bi) (e13 : bf' = bf) (e15 : bz' = bz) :
    cArr X' H' C' Wi' Ui' Wf' Uf' Wz' Uz' bi' bf' bz' = cArr X H C Wi Ui Wf Uf Wz Uz bi bf bz := by
  subst e0 e1 e2 e4 e5 e6 e7 e10 e11 e12 e13 e15; rfl

theorem nArr_congr {X X' H H' N N' : Rows.Idx → EReal} {Wi Wi' Ui Ui' Wf Wf' Uf Uf' : Mat.Idx → EReal}
    {bi bi' bf bf' : Bias.Idx → EReal}
    (e0 : X' = X) (e1 : H' = H) (e3 : N' = N) (e4 : Wi' = Wi) (e5 : Ui' = Ui) (e6 : Wf' = Wf) (e7 : Uf' = Uf)
    (e12 : bi' = bi) (e13 : bf' = bf) :
    nArr X' H' N' Wi' Ui' Wf' Uf' bi' bf' = nArr X H N Wi Ui Wf Uf bi bf := by
  subst e0 e1 e3 e4 e5 e6 e7 e12 e13; rfl

end Cert.Cell

end
-- ==== Proof.BlockCell.lean ====
/-
  The body's arithmetic at one entry of a block. The body multiplies the 2048×128 blocks of `x` and
  `h` by the fused 128×512 weight matrices (into a zero accumulator: plain sums over the 128
  contracted columns), adds the 1×512 bias row broadcast down the rows, and cuts the 2048×512
  result into four 2048×128 column slices: columns `q`, `128+q`, `256+q`, `384+q` are the input,
  forget, output and cell-input pre-activations of unit `q`. Everything after that acts entry by
  entry, so each output block is the cell of Proof/Cell.lean applied to those four sums.
-/
import proofs.«423580_j58067957842088_3_alg».proof.Proof.IdealBody
import proofs.«423580_j58067957842088_3_alg».proof.Proof.Cell
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Cert.KernelIdeal.Region Cert.Cell
open Idealize.ShloMosaic Idealize.ShloMosaic.ValueIdx

/-! ## The product of a block with a fused weight matrix -/

theorem dotL0 (i : S2048x512.Idx) (q : dot_S2048x128_S128x512_S2048x512_1_0_0_1_n_n.contr.Idx) : (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem dotL1 (i : S2048x512.Idx) (q : dot_S2048x128_S128x512_S2048x512_1_0_0_1_n_n.contr.Idx) : (dot_S2048x128_S128x512_S2048x512_1_0_0_1_n_n.lhsIdx i q 1).val = (q ⟨0, by decide⟩).val :=
  dot_S2048x128_S128x512_S2048x512_1_0_0_1_n_n.lhsIdx_val_of_single rfl i q
theorem dotR0 (i : S2048x512.Idx) (q : dot_S2048x128_S128x512_S2048x512_1_0_0_1_n_n.contr.Idx) : (dot_S2048x128_S128x512_S2048x512_1_0_0_1_n_n.rhsIdx i q 0).val = (q ⟨0, by decide⟩).val :=
  dot_S2048x128_S128x512_S2048x512_1_0_0_1_n_n.rhsIdx_val_of_single rfl i q
theorem dotR1 (i : S2048x512.Idx) (q : dot_S2048x128_S128x512_S2048x512_1_0_0_1_n_n.contr.Idx) : (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- Row `p` of the block against column `cc` of the matrix: a sum over the 128 contracted positions. -/
theorem prod_at (a : FVec Ideal S2048x128 .bf16) (w : FVec Ideal S128x512 .bf16) (p : Fin 2048) (cc : Fin 512) :
    matmul dot_S2048x128_S128x512_S2048x512_1_0_0_1_n_n none a w (constant (F := Ideal) S2048x512 .f32 0x00000000#32) (ix2 p cc)
      = ∑ k : Fin 128, a (ix2 p k) * w (ix2 k cc) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p cc) ((contrEquiv1 dot_S2048x128_S128x512_S2048x512_1_0_0_1_n_n 128 rfl rfl).symm k) = ix2 p k := funext fun a => Fin.ext (by
    match a with
    | ⟨0, _⟩ => exact dotL0 _ _
    | ⟨1, _⟩ => exact (dotL1 _ _).trans hk)
  have er : dot_S2048x128_S128x512_S2048x512_1_0_0_1_n_n.rhsIdx (ix2 p cc) ((contrEquiv1 dot_S2048x128_S128x512_S2048x512_1_0_0_1_n_n 128 rfl rfl).symm k) = ix2 k cc := funext fun a => Fin.ext (by
    match a with
    | ⟨0, _⟩ => exact (dotR0 _ _).trans hk
    | ⟨1, _⟩ => exact dotR1 _ _)
  rw [el, er]

/-- The fused pre-activation of a block at row `p`, fused column `cc`. -/
def blockPre (x0 x1 : Vec Ideal S2048x128 .f32) (x4 x5 : Vec Ideal S128x512 .f32) (x6 : Vec Ideal S1x512 .f32)
    (p : Fin 2048) (cc : Fin 512) : EReal :=
  (∑ k : Fin 128, x0 (ix2 p k) * x4 (ix2 k cc)) + (∑ k : Fin 128, x1 (ix2 p k) * x5 (ix2 k cc)) + x6 (ix2 (0 : Fin 1) cc)

/-- The bias row broadcast down the 2048 rows. -/
theorem bias_at (x6 : Vec Ideal S1x512 .f32) (p : Fin 2048) (cc : Fin 512) :
    broadcastTo S2048x512 x6 broadcasts_S1x512_S2048x512 (ix2 p cc) = x6 (ix2 (0 : Fin 1) cc) :=
  broadcastTo_apply x6 broadcasts_S1x512_S2048x512 (ix2 p cc) (ix2 (0 : Fin 1) cc) (fun a => by
    match a with
    | ⟨0, _⟩ => rfl
    | ⟨1, _⟩ => rfl)

/-- The body's 2048×512 intermediate is the fused pre-activation: the rounding of the operands to bf16 is the identity
    on the extended reals, and the product into a zero accumulator is the plain sum. -/
theorem fused_at (x0 x1 : Vec Ideal S2048x128 .f32) (x4 x5 : Vec Ideal S128x512 .f32) (x6 : Vec Ideal S1x512 .f32)
    (p : Fin 2048) (cc : Fin 512) :
    k0_pay1 (F := Ideal) x0 x1 x4 x5 x6 (ix2 p cc) = blockPre x0 x1 x4 x5 x6 p cc := by
  unfold k0_pay1 blockPre
  simp only [shapeCast_self, addf_apply]
  rw [prod_at, prod_at, bias_at]
  rfl

/-! ## The four column slices -/

/-- Unit `q`'s column of the input, forget, output and cell-input pre-activations in the fused 512 columns. -/
def colI (q : Fin 128) : Fin 512 := ⟨q.val, by omega⟩
def colF (q : Fin 128) : Fin 512 := ⟨128 + q.val, by omega⟩
def colO (q : Fin 128) : Fin 512 := ⟨256 + q.val, by omega⟩
def colZ (q : Fin 128) : Fin 512 := ⟨384 + q.val, by omega⟩

theorem sliceI (v : FVec Ideal S2048x512 .f32) (p : Fin 2048) (q : Fin 128) :
    extractStridedSlice S2048x128 ![0, 0] v slices_S2048x512_o0_0_S2048x128 (ix2 p q) = v (ix2 p (colI q)) :=
  extractStridedSlice_apply ![0, 0] v slices_S2048x512_o0_0_S2048x128 (ix2 p q) (ix2 p (colI q)) (fun a => by
    match a with
    | ⟨0, _⟩ => exact (Nat.zero_add _).symm
    | ⟨1, _⟩ => exact (Nat.zero_add _).symm)
theorem sliceF (v : FVec Ideal S2048x512 .f32) (p : Fin 2048) (q : Fin 128) :
    extractStridedSlice S2048x128 ![0, 128] v slices_S2048x512_o0_128_S2048x128 (ix2 p q) = v (ix2 p (colF q)) :=
  extractStridedSlice_apply ![0, 128] v slices_S2048x512_o0_128_S2048x128 (ix2 p q) (ix2 p (colF q)) (fun a => by
    match a with
    | ⟨0, _⟩ => exact (Nat.zero_add _).symm
    | ⟨1, _⟩ => rfl)
theorem sliceO (v : FVec Ideal S2048x512 .f32) (p : Fin 2048) (q : Fin 128) :
    extractStridedSlice S2048x128 ![0, 256] v slices_S2048x512_o0_256_S2048x128 (ix2 p q) = v (ix2 p (colO q)) :=
  extractStridedSlice_apply ![0, 256] v slices_S2048x512_o0_256_S2048x128 (ix2 p q) (ix2 p (colO q)) (fun a => by
    match a with
    | ⟨0, _⟩ => exact (Nat.zero_add _).symm
    | ⟨1, _⟩ => rfl)
theorem sliceZ (v : FVec Ideal S2048x512 .f32) (p : Fin 2048) (q : Fin 128) :
    extractStridedSlice S2048x128 ![0, 384] v slices_S2048x512_o0_384_S2048x128 (ix2 p q) = v (ix2 p (colZ q)) :=
  extractStridedSlice_apply ![0, 384] v slices_S2048x512_o0_384_S2048x128 (ix2 p q) (ix2 p (colZ q)) (fun a => by
    match a with
    | ⟨0, _⟩ => exact (Nat.zero_add _).symm
    | ⟨1, _⟩ => rfl)

/-! ## The three output blocks, entry by entry -/

theorem exp_at {s : Shape} {φ : FTy} (a : FVec Ideal s φ) (i : s.Idx) : exp a i = Ideal.exp (a i) := rfl
theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl

section Entries

variable (x0 x1 x2 x3 : Vec Ideal S2048x128 .f32) (x4 x5 : Vec Ideal S128x512 .f32) (x6 : Vec Ideal S1x512 .f32)
  (p : Fin 2048) (q : Fin 128)

/-- The new cell state of the block at row `p`, unit `q`. -/
theorem cNew_at : cNew (F := Ideal) x0 x1 x2 x3 x4 x5 x6 (ix2 p q)
    = cNext (blockPre x0 x1 x4 x5 x6 p (colI q)) (blockPre x0 x1 x4 x5 x6 p (colF q)) (blockPre x0 x1 x4 x5 x6 p (colZ q))
        (x2 (ix2 p q)) := by
  unfold cNew k0_pay7 k0_pay6 k0_pay5 k0_pay4 k0_pay3 k0_pay2 cNext
  simp only [addf_apply, mulf_apply, subf_apply, maximumf_apply, exp_at, tanh_at, logistic_at, sliceI, sliceF, sliceZ, fused_at]

/-- The new normaliser of the block at row `p`, unit `q`. -/
theorem nNew_at : nNew (F := Ideal) x0 x1 x2 x3 x4 x5 x6 (ix2 p q)
    = nNext (blockPre x0 x1 x4 x5 x6 p (colI q)) (blockPre x0 x1 x4 x5 x6 p (colF q)) (x3 (ix2 p q)) := by
  unfold nNew k0_pay8 k0_pay6 k0_pay5 k0_pay4 k0_pay3 k0_pay2 nNext
  simp only [addf_apply, mulf_apply, subf_apply, maximumf_apply, exp_at, tanh_at, logistic_at, sliceI, sliceF, fused_at]

/-- The new hidden state of the block at row `p`, unit `q`. -/
theorem hNew_at : hNew (F := Ideal) x0 x1 x2 x3 x4 x5 x6 (ix2 p q)
    = hNext (blockPre x0 x1 x4 x5 x6 p (colI q)) (blockPre x0 x1 x4 x5 x6 p (colF q)) (blockPre x0 x1 x4 x5 x6 p (colO q))
        (blockPre x0 x1 x4 x5 x6 p (colZ q)) (x2 (ix2 p q)) (x3 (ix2 p q)) := by
  unfold hNew k0_pay9 k0_pay8 k0_pay7 k0_pay6 k0_pay5 k0_pay4 k0_pay3 k0_pay2 hNext cNext nNext eps
  simp only [addf_apply, mulf_apply, subf_apply, maximumf_apply, divf_apply, broadcast_apply, exp_at, tanh_at, logistic_at,
    sliceI, sliceF, sliceO, sliceZ, fused_at]
  rfl

end Entries

end Cert.KernelIdeal.Block

end
-- ==== Proof.HostFused.lean ====
/-
  The fused weights as the pallas_call finds them. The host operations transpose the eight 128×128
  weight matrices and lay the four transposes of the input weights, and of the recurrent weights,
  side by side: column `g·128 + q` of a fused matrix, row `k`, is entry `(q, k)` of gate `g`'s
  matrix. The four bias vectors are laid end to end and reshaped to one row of 512: entry
  `g·128 + q` of that row is entry `q` of gate `g`'s bias.
-/
import proofs.«423580_j58067957842088_3_alg».proof.Proof.IdealEntry
import Idealize.ShloMosaic.Lib.Pipeline.Value
import Idealize.ShloMosaic.Lib.ValueIdx
import Idealize.ShloMosaic.Lib.StableHlo.Run

set_option maxRecDepth 16384

noncomputable section

namespace Cert.KernelIdeal.Region

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

variable (m : (ℓ : Loc nD τ sig) → Buf (Elt F) ℓ)

/-! ## The three fused arrays, whole -/

/-- The fused input weights: the transposes of `W_i`, `W_f`, `W_o`, `W_z` side by side. Each host operation writes one
    fresh buffer, so running the twelve of them from the launch memory computes to this. -/
theorem V_fusedW (c : Dev nD) : (V m c main_v4 : S128x512.Idx → Elt F .f32) =
    concatenate S128x512 1 [⟨S128x128, transpose S128x128 [1, 0] (m ((c : Thread nD τ).loc main_arg4)) transposes_S128x128_S128x128_1_0⟩,
      ⟨S128x128, transpose S128x128 [1, 0] (m ((c : Thread nD τ).loc main_arg6)) transposes_S128x128_S128x128_1_0⟩,
      ⟨S128x128, transpose S128x128 [1, 0] (m ((c : Thread nD τ).loc main_arg8)) transposes_S128x128_S128x128_1_0⟩,
      ⟨S128x128, transpose S128x128 [1, 0] (m ((c : Thread nD τ).loc main_arg10)) transposes_S128x128_S128x128_1_0⟩]
      concatenates_S128x128_S128x128_S128x128_S128x128_S128x512_d1 := rfl

/-- The fused recurrent weights: the transposes of `U_i`, `U_f`, `U_o`, `U_z` side by side. -/
theorem V_fusedU (c : Dev nD) : (V m c main_v9 : S128x512.Idx → Elt F .f32) =
    concatenate S128x512 1 [⟨S128x128, transpose S128x128 [1, 0] (m ((c : Thread nD τ).loc main_arg5)) transposes_S128x128_S128x128_1_0⟩,
      ⟨S128x128, transpose S128x128 [1, 0] (m ((c : Thread nD τ).loc main_arg7)) transposes_S128x128_S128x128_1_0⟩,
      ⟨S128x128, transpose S128x128 [1, 0] (m ((c : Thread nD τ).loc main_arg9)) transposes_S128x128_S128x128_1_0⟩,
      ⟨S128x128, transpose S128x128 [1, 0] (m ((c : Thread nD τ).loc main_arg11)) transposes_S128x128_S128x128_1_0⟩]
      concatenates_S128x128_S128x128_S128x128_S128x128_S128x512_d1 := rfl

/-- The bias row: `b_i`, `b_f`, `b_o`, `b_z` end to end, as one row. -/
theorem V_biasRow (c : Dev nD) : (V m c main_v11 : S1x512.Idx → Elt F .f32) =
    shapeCast S1x512 (concatenate S512 0 [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩]
        concatenates_S128_S128_S128_S128_S512_d0) shapeCasts_S512_S1x512 := rfl

/-! ## Read where the body reads them -/

/-- Column `0 + q` of the fused matrix, row `k`: entry `(q, k)` of the input gate's matrix. -/
theorem fusedW_I (c : Dev nD) (k q : Fin 128) (cc : Fin 512) (h : cc.val = 0 + q.val) :
    V m c main_v4 (ix2 k cc) = m ((c : Thread nD τ).loc main_arg4) (ix2 q k) := by
  refine (congrFun (V_fusedW m c) (ix2 k cc)).trans ?_
  refine (concatenate_apply_piece (1 : Fin S128x512.rank)
    [⟨S128x128, transpose S128x128 [1, 0] (m ((c : Thread nD τ).loc main_arg4)) transposes_S128x128_S128x128_1_0⟩,
      ⟨S128x128, transpose S128x128 [1, 0] (m ((c : Thread nD τ).loc main_arg6)) transposes_S128x128_S128x128_1_0⟩,
      ⟨S128x128, transpose S128x128 [1, 0] (m ((c : Thread nD τ).loc main_arg8)) transposes_S128x128_S128x128_1_0⟩,
      ⟨S128x128, transpose S128x128 [1, 0] (m ((c : Thread nD τ).loc main_arg10)) transposes_S128x128_S128x128_1_0⟩]
    concatenates_S128x128_S128x128_S128x128_S128x128_S128x512_d1
    (ix2 k cc) 0 (by show (0 : Nat) < 4; omega) S128x128 _ rfl rfl 0 (by rfl) (ix2 k q) (fun b hb => by
      match b with
      | ⟨0, _⟩ => rfl
      | ⟨1, _⟩ => exact absurd rfl hb) (by show 0 + q.val = cc.val; omega)).trans ?_
  exact transpose_apply [1, 0] _ transposes_S128x128_S128x128_1_0 (ix2 k q) (ix2 q k) (fun b => match b with
    | ⟨0, _⟩ => rfl
    | ⟨1, _⟩ => rfl)
/-- Column `128 + q` of the fused matrix, row `k`: entry `(q, k)` of the forget gate's matrix. -/
theorem fusedW_F (c : Dev nD) (k q : Fin 128) (cc : Fin 512) (h : cc.val = 128 + q.val) :
    V m c main_v4 (ix2 k cc) = m ((c : Thread nD τ).loc main_arg6) (ix2 q k) := by
  refine (congrFun (V_fusedW m c) (ix2 k cc)).trans ?_
  refine (concatenate_apply_piece (1 : Fin S128x512.rank)
    [⟨S128x128, transpose S128x128 [1, 0] (m ((c : Thread nD τ).loc main_arg4)) transposes_S128x128_S128x128_1_0⟩,
      ⟨S128x128, transpose S128x128 [1, 0] (m ((c : Thread nD τ).loc main_arg6)) transposes_S128x128_S128x128_1_0⟩,
      ⟨S128x128, transpose S128x128 [1, 0] (m ((c : Thread nD τ).loc main_arg8)) transposes_S128x128_S128x128_1_0⟩,
      ⟨S128x128, transpose S128x128 [1, 0] (m ((c : Thread nD τ).loc main_arg10)) transposes_S128x128_S128x128_1_0⟩]
    concatenates_S128x128_S128x128_S128x128_S128x128_S128x512_d1
    (ix2 k cc) 1 (by show (1 : Nat) < 4; omega) S128x128 _ rfl rfl 128 (by rfl) (ix2 k q) (fun b hb => by
      match b with
      | ⟨0, _⟩ => rfl
      | ⟨1, _⟩ => exact absurd rfl hb) (by show 128 + q.val = cc.val; omega)).trans ?_
  exact transpose_apply [1, 0] _ transposes_S128x128_S128x128_1_0 (ix2 k q) (ix2 q k) (fun b => match b with
    | ⟨0, _⟩ => rfl
    | ⟨1, _⟩ => rfl)
/-- Column `256 + q` of the fused matrix, row `k`: entry `(q, k)` of the output gate's matrix. -/
theorem fusedW_O (c : Dev nD) (k q : Fin 128) (cc : Fin 512) (h : cc.val = 256 + q.val) :
    V m c main_v4 (ix2 k cc) = m ((c : Thread nD τ).loc main_arg8) (ix2 q k) := by
  refine (congrFun (V_fusedW m c) (ix2 k cc)).trans ?_
  refine (concatenate_apply_piece (1 : Fin S128x512.rank)
    [⟨S128x128, transpose S128x128 [1, 0] (m ((c : Thread nD τ).loc main_arg4)) transposes_S128x128_S128x128_1_0⟩,
      ⟨S128x128, transpose S128x128 [1, 0] (m ((c : Thread nD τ).loc main_arg6)) transposes_S128x128_S128x128_1_0⟩,
      ⟨S128x128, transpose S128x128 [1, 0] (m ((c : Thread nD τ).loc main_arg8)) transposes_S128x128_S128x128_1_0⟩,
      ⟨S128x128, transpose S128x128 [1, 0] (m ((c : Thread nD τ).loc main_arg10)) transposes_S128x128_S128x128_1_0⟩]
    concatenates_S128x128_S128x128_S128x128_S128x128_S128x512_d1
    (ix2 k cc) 2 (by show (2 : Nat) < 4; omega) S128x128 _ rfl rfl 256 (by rfl) (ix2 k q) (fun b hb => by
      match b with
      | ⟨0, _⟩ => rfl
      | ⟨1, _⟩ => exact absurd rfl hb) (by show 256 + q.val = cc.val; omega)).trans ?_
  exact transpose_apply [1, 0] _ transposes_S128x128_S128x128_1_0 (ix2 k q) (ix2 q k) (fun b => match b with
    | ⟨0, _⟩ => rfl
    | ⟨1, _⟩ => rfl)
/-- Column `384 + q` of the fused matrix, row `k`: entry `(q, k)` of the cell-input gate's matrix. -/
theorem fusedW_Z (c : Dev nD) (k q : Fin 128) (cc : Fin 512) (h : cc.val = 384 + q.val) :
    V m c main_v4 (ix2 k cc) = m ((c : Thread nD τ).loc main_arg10) (ix2 q k) := by
  refine (congrFun (V_fusedW m c) (ix2 k cc)).trans ?_
  refine (concatenate_apply_piece (1 : Fin S128x512.rank)
    [⟨S128x128, transpose S128x128 [1, 0] (m ((c : Thread nD τ).loc main_arg4)) transposes_S128x128_S128x128_1_0⟩,
      ⟨S128x128, transpose S128x128 [1, 0] (m ((c : Thread nD τ).loc main_arg6)) transposes_S128x128_S128x128_1_0⟩,
      ⟨S128x128, transpose S128x128 [1, 0] (m ((c : Thread nD τ).loc main_arg8)) transposes_S128x128_S128x128_1_0⟩,
      ⟨S128x128, transpose S128x128 [1, 0] (m ((c : Thread nD τ).loc main_arg10)) transposes_S128x128_S128x128_1_0⟩]
    concatenates_S128x128_S128x128_S128x128_S128x128_S128x512_d1
    (ix2 k cc) 3 (by show (3 : Nat) < 4; omega) S128x128 _ rfl rfl 384 (by rfl) (ix2 k q) (fun b hb => by
      match b with
      | ⟨0, _⟩ => rfl
      | ⟨1, _⟩ => exact absurd rfl hb) (by show 384 + q.val = cc.val; omega)).trans ?_
  exact transpose_apply [1, 0] _ transposes_S128x128_S128x128_1_0 (ix2 k q) (ix2 q k) (fun b => match b with
    | ⟨0, _⟩ => rfl
    | ⟨1, _⟩ => rfl)

/-- Column `0 + q` of the fused matrix, row `k`: entry `(q, k)` of the input gate's matrix. -/
theorem fusedU_I (c : Dev nD) (k q : Fin 128) (cc : Fin 512) (h : cc.val = 0 + q.val) :
    V m c main_v9 (ix2 k cc) = m ((c : Thread nD τ).loc main_arg5) (ix2 q k) := by
  refine (congrFun (V_fusedU m c) (ix2 k cc)).trans ?_
  refine (concatenate_apply_piece (1 : Fin S128x512.rank)
    [⟨S128x128, transpose S128x128 [1, 0] (m ((c : Thread nD τ).loc main_arg5)) transposes_S128x128_S128x128_1_0⟩,
      ⟨S128x128, transpose S128x128 [1, 0] (m ((c : Thread nD τ).loc main_arg7)) transposes_S128x128_S128x128_1_0⟩,
      ⟨S128x128, transpose S128x128 [1, 0] (m ((c : Thread nD τ).loc main_arg9)) transposes_S128x128_S128x128_1_0⟩,
      ⟨S128x128, transpose S128x128 [1, 0] (m ((c : Thread nD τ).loc main_arg11)) transposes_S128x128_S128x128_1_0⟩]
    concatenates_S128x128_S128x128_S128x128_S128x128_S128x512_d1
    (ix2 k cc) 0 (by show (0 : Nat) < 4; omega) S128x128 _ rfl rfl 0 (by rfl) (ix2 k q) (fun b hb => by
      match b with
      | ⟨0, _⟩ => rfl
      | ⟨1, _⟩ => exact absurd rfl hb) (by show 0 + q.val = cc.val; omega)).trans ?_
  exact transpose_apply [1, 0] _ transposes_S128x128_S128x128_1_0 (ix2 k q) (ix2 q k) (fun b => match b with
    | ⟨0, _⟩ => rfl
    | ⟨1, _⟩ => rfl)
/-- Column `128 + q` of the fused matrix, row `k`: entry `(q, k)` of the forget gate's matrix. -/
theorem fusedU_F (c : Dev nD) (k q : Fin 128) (cc : Fin 512) (h : cc.val = 128 + q.val) :
    V m c main_v9 (ix2 k cc) = m ((c : Thread nD τ).loc main_arg7) (ix2 q k) := by
  refine (congrFun (V_fusedU m c) (ix2 k cc)).trans ?_
  refine (concatenate_apply_piece (1 : Fin S128x512.rank)
    [⟨S128x128, transpose S128x128 [1, 0] (m ((c : Thread nD τ).loc main_arg5)) transposes_S128x128_S128x128_1_0⟩,
      ⟨S128x128, transpose S128x128 [1, 0] (m ((c : Thread nD τ).loc main_arg7)) transposes_S128x128_S128x128_1_0⟩,
      ⟨S128x128, transpose S128x128 [1, 0] (m ((c : Thread nD τ).loc main_arg9)) transposes_S128x128_S128x128_1_0⟩,
      ⟨S128x128, transpose S128x128 [1, 0] (m ((c : Thread nD τ).loc main_arg11)) transposes_S128x128_S128x128_1_0⟩]
    concatenates_S128x128_S128x128_S128x128_S128x128_S128x512_d1
    (ix2 k cc) 1 (by show (1 : Nat) < 4; omega) S128x128 _ rfl rfl 128 (by rfl) (ix2 k q) (fun b hb => by
      match b with
      | ⟨0, _⟩ => rfl
      | ⟨1, _⟩ => exact absurd rfl hb) (by show 128 + q.val = cc.val; omega)).trans ?_
  exact transpose_apply [1, 0] _ transposes_S128x128_S128x128_1_0 (ix2 k q) (ix2 q k) (fun b => match b with
    | ⟨0, _⟩ => rfl
    | ⟨1, _⟩ => rfl)
/-- Column `256 + q` of the fused matrix, row `k`: entry `(q, k)` of the output gate's matrix. -/
theorem fusedU_O (c : Dev nD) (k q : Fin 128) (cc : Fin 512) (h : cc.val = 256 + q.val) :
    V m c main_v9 (ix2 k cc) = m ((c : Thread nD τ).loc main_arg9) (ix2 q k) := by
  refine (congrFun (V_fusedU m c) (ix2 k cc)).trans ?_
  refine (concatenate_apply_piece (1 : Fin S128x512.rank)
    [⟨S128x128, transpose S128x128 [1, 0] (m ((c : Thread nD τ).loc main_arg5)) transposes_S128x128_S128x128_1_0⟩,
      ⟨S128x128, transpose S128x128 [1, 0] (m ((c : Thread nD τ).loc main_arg7)) transposes_S128x128_S128x128_1_0⟩,
      ⟨S128x128, transpose S128x128 [1, 0] (m ((c : Thread nD τ).loc main_arg9)) transposes_S128x128_S128x128_1_0⟩,
      ⟨S128x128, transpose S128x128 [1, 0] (m ((c : Thread nD τ).loc main_arg11)) transposes_S128x128_S128x128_1_0⟩]
    concatenates_S128x128_S128x128_S128x128_S128x128_S128x512_d1
    (ix2 k cc) 2 (by show (2 : Nat) < 4; omega) S128x128 _ rfl rfl 256 (by rfl) (ix2 k q) (fun b hb => by
      match b with
      | ⟨0, _⟩ => rfl
      | ⟨1, _⟩ => exact absurd rfl hb) (by show 256 + q.val = cc.val; omega)).trans ?_
  exact transpose_apply [1, 0] _ transposes_S128x128_S128x128_1_0 (ix2 k q) (ix2 q k) (fun b => match b with
    | ⟨0, _⟩ => rfl
    | ⟨1, _⟩ => rfl)
/-- Column `384 + q` of the fused matrix, row `k`: entry `(q, k)` of the cell-input gate's matrix. -/
theorem fusedU_Z (c : Dev nD) (k q : Fin 128) (cc : Fin 512) (h : cc.val = 384 + q.val) :
    V m c main_v9 (ix2 k cc) = m ((c : Thread nD τ).loc main_arg11) (ix2 q k) := by
  refine (congrFun (V_fusedU m c) (ix2 k cc)).trans ?_
  refine (concatenate_apply_piece (1 : Fin S128x512.rank)
    [⟨S128x128, transpose S128x128 [1, 0] (m ((c : Thread nD τ).loc main_arg5)) transposes_S128x128_S128x128_1_0⟩,
      ⟨S128x128, transpose S128x128 [1, 0] (m ((c : Thread nD τ).loc main_arg7)) transposes_S128x128_S128x128_1_0⟩,
      ⟨S128x128, transpose S128x128 [1, 0] (m ((c : Thread nD τ).loc main_arg9)) transposes_S128x128_S128x128_1_0⟩,
      ⟨S128x128, transpose S128x128 [1, 0] (m ((c : Thread nD τ).loc main_arg11)) transposes_S128x128_S128x128_1_0⟩]
    concatenates_S128x128_S128x128_S128x128_S128x128_S128x512_d1
    (ix2 k cc) 3 (by show (3 : Nat) < 4; omega) S128x128 _ rfl rfl 384 (by rfl) (ix2 k q) (fun b hb => by
      match b with
      | ⟨0, _⟩ => rfl
      | ⟨1, _⟩ => exact absurd rfl hb) (by show 384 + q.val = cc.val; omega)).trans ?_
  exact transpose_apply [1, 0] _ transposes_S128x128_S128x128_1_0 (ix2 k q) (ix2 q k) (fun b => match b with
    | ⟨0, _⟩ => rfl
    | ⟨1, _⟩ => rfl)

theorem bias_I (c : Dev nD) (q : Fin 128) (cc : Fin 512) (h : cc.val = 0 + q.val) :
    V m c main_v11 (ix2 (0 : Fin 1) cc) = m ((c : Thread nD τ).loc main_arg12) (ix1 q) := by
  refine (congrFun (V_biasRow m c) (ix2 (0 : Fin 1) cc)).trans ?_
  refine (shapeCast_apply _ shapeCasts_S512_S1x512 (ix2 (0 : Fin 1) cc) (ix1 cc) (by
    rw [Shape.rowMajor_val_one, Shape.rowMajor_val_two]; show cc.val = 0 * 512 + cc.val; omega)).trans ?_
  exact concatenate_apply_piece (0 : Fin S512.rank)
    [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩]
    concatenates_S128_S128_S128_S128_S512_d0
    (ix1 cc) 0 (by show (0 : Nat) < 4; omega) S128 _ rfl rfl 0 (by rfl) (ix1 q) (fun b hb => by
      match b with
      | ⟨0, _⟩ => exact absurd rfl hb) (by show 0 + q.val = cc.val; omega)
theorem bias_F (c : Dev nD) (q : Fin 128) (cc : Fin 512) (h : cc.val = 128 + q.val) :
    V m c main_v11 (ix2 (0 : Fin 1) cc) = m ((c : Thread nD τ).loc main_arg13) (ix1 q) := by
  refine (congrFun (V_biasRow m c) (ix2 (0 : Fin 1) cc)).trans ?_
  refine (shapeCast_apply _ shapeCasts_S512_S1x512 (ix2 (0 : Fin 1) cc) (ix1 cc) (by
    rw [Shape.rowMajor_val_one, Shape.rowMajor_val_two]; show cc.val = 0 * 512 + cc.val; omega)).trans ?_
  exact concatenate_apply_piece (0 : Fin S512.rank)
    [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩]
    concatenates_S128_S128_S128_S128_S512_d0
    (ix1 cc) 1 (by show (1 : Nat) < 4; omega) S128 _ rfl rfl 128 (by rfl) (ix1 q) (fun b hb => by
      match b with
      | ⟨0, _⟩ => exact absurd rfl hb) (by show 128 + q.val = cc.val; omega)
theorem bias_O (c : Dev nD) (q : Fin 128) (cc : Fin 512) (h : cc.val = 256 + q.val) :
    V m c main_v11 (ix2 (0 : Fin 1) cc) = m ((c : Thread nD τ).loc main_arg14) (ix1 q) := by
  refine (congrFun (V_biasRow m c) (ix2 (0 : Fin 1) cc)).trans ?_
  refine (shapeCast_apply _ shapeCasts_S512_S1x512 (ix2 (0 : Fin 1) cc) (ix1 cc) (by
    rw [Shape.rowMajor_val_one, Shape.rowMajor_val_two]; show cc.val = 0 * 512 + cc.val; omega)).trans ?_
  exact concatenate_apply_piece (0 : Fin S512.rank)
    [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩]
    concatenates_S128_S128_S128_S128_S512_d0
    (ix1 cc) 2 (by show (2 : Nat) < 4; omega) S128 _ rfl rfl 256 (by rfl) (ix1 q) (fun b hb => by
      match b with
      | ⟨0, _⟩ => exact absurd rfl hb) (by show 256 + q.val = cc.val; omega)
theorem bias_Z (c : Dev nD) (q : Fin 128) (cc : Fin 512) (h : cc.val = 384 + q.val) :
    V m c main_v11 (ix2 (0 : Fin 1) cc) = m ((c : Thread nD τ).loc main_arg15) (ix1 q) := by
  refine (congrFun (V_biasRow m c) (ix2 (0 : Fin 1) cc)).trans ?_
  refine (shapeCast_apply _ shapeCasts_S512_S1x512 (ix2 (0 : Fin 1) cc) (ix1 cc) (by
    rw [Shape.rowMajor_val_one, Shape.rowMajor_val_two]; show cc.val = 0 * 512 + cc.val; omega)).trans ?_
  exact concatenate_apply_piece (0 : Fin S512.rank)
    [⟨S128, (m ((c : Thread nD τ).loc main_arg12))⟩, ⟨S128, (m ((c : Thread nD τ).loc main_arg13))⟩, ⟨S128, (m ((c : Thread nD τ).loc main_arg14))⟩, ⟨S128, (m ((c : Thread nD τ).loc main_arg15))⟩]
    concatenates_S128_S128_S128_S128_S512_d0
    (ix1 cc) 3 (by show (3 : Nat) < 4; omega) S128 _ rfl rfl 384 (by rfl) (ix1 q) (fun b hb => by
      match b with
      | ⟨0, _⟩ => exact absurd rfl hb) (by show 384 + q.val = cc.val; omega)

end Cert.KernelIdeal.Region

end
-- ==== Proof.KernelArrays.lean ====
/-
  From blocks to arrays. Grid point `t` (of 128) works on rows `2048·t … 2048·t + 2047` of the four
  batch arrays and of the three results, and on the whole fused weights and bias row. So entry
  `(p, k)` of a batch block is entry `(2048·t + p, k)` of its array, the fused sums over the blocks
  are the four gates' pre-activations of the whole arrays at row `2048·t + p`, and what the point
  writes back is block `t` of the cell's result arrays. The 128 blocks tile the 262144 rows, hence
  each result array ends equal to the cell's array of the sixteen launch arrays.
-/
import proofs.«423580_j58067957842088_3_alg».proof.Proof.IdealRun
import proofs.«423580_j58067957842088_3_alg».proof.Proof.BlockCell
import proofs.«423580_j58067957842088_3_alg».proof.Proof.HostFused

set_option maxRecDepth 16384

noncomputable section

open scoped BigOperators

namespace Cert.KernelIdeal.Arrays

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Region Cert.KernelIdeal.Block Cert.Cell

variable (m : (ℓ : Loc nD τ sig) → Buf (Elt Ideal) ℓ) (ρ : Dev nD → PrngReg)

/-! ## The block index maps, decided over the grid

The batch windows and the result windows are at block `(t, 0)` at point `t`; the weights and the bias row stay at
block `(0, 0)`. -/

theorem index_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index_w3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index_w7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem index_w8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem index_w9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- The array row of row `p` of point `t`'s block. -/
def rowOf (t : Fin cfg0.N) (p : Fin 2048) : Fin 262144 :=
  ⟨t.val * 2048 + p.val, by
    have ht : t.val < 128 := lt_of_lt_of_eq t.isLt N_0
    have hp := p.isLt
    omega⟩

/-! ## Block entries read off the arrays -/

theorem rows_at0 (c : Dev nD) (t : Fin cfg0.N) (p : Fin 2048) (k : Fin 128) :
    iblk m c 0 t (ix2 p k) = m ((c : Thread nD τ).loc main_arg0) (ix2 (rowOf t p) k) := by
  obtain ⟨e0, e1⟩ := index_w0 t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega
theorem rows_at1 (c : Dev nD) (t : Fin cfg0.N) (p : Fin 2048) (k : Fin 128) :
    iblk m c 1 t (ix2 p k) = m ((c : Thread nD τ).loc main_arg1) (ix2 (rowOf t p) k) := by
  obtain ⟨e0, e1⟩ := index_w1 t
  show V m c main_arg1 (((cfg0.win 1).blk t).view.emb (ix2 p k)) = _
  rw [V_main_arg1]
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega
theorem rows_at2 (c : Dev nD) (t : Fin cfg0.N) (p : Fin 2048) (k : Fin 128) :
    iblk m c 2 t (ix2 p k) = m ((c : Thread nD τ).loc main_arg2) (ix2 (rowOf t p) k) := by
  obtain ⟨e0, e1⟩ := index_w2 t
  show V m c main_arg2 (((cfg0.win 2).blk t).view.emb (ix2 p k)) = _
  rw [V_main_arg2]
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega
theorem rows_at3 (c : Dev nD) (t : Fin cfg0.N) (p : Fin 2048) (k : Fin 128) :
    iblk m c 3 t (ix2 p k) = m ((c : Thread nD τ).loc main_arg3) (ix2 (rowOf t p) k) := by
  obtain ⟨e0, e1⟩ := index_w3 t
  show V m c main_arg3 (((cfg0.win 3).blk t).view.emb (ix2 p k)) = _
  rw [V_main_arg3]
  refine congrArg _ (funext fun a => Fin.ext ?_)
  match a with
  | ⟨0, _⟩ => show win0_3.index t (0 : Fin 2) * 2048 + 1 * p.val = t.val * 2048 + p.val; omega
  | ⟨1, _⟩ => show win0_3.index t (1 : Fin 2) * 128 + 1 * k.val = k.val; omega

theorem fused_at4 (c : Dev nD) (t : Fin cfg0.N) (k : Fin 128) (cc : Fin 512) :
    iblk m c 4 t (ix2 k cc) = V m c main_v4 (ix2 k cc) := by
  obtain ⟨e0, e1⟩ := index_w4 t
  show V m c main_v4 (((cfg0.win 4).blk t).view.emb (ix2 k cc)) = _
  refine congrArg _ (funext fun a => Fin.ext ?_)
  match a with
  | ⟨0, _⟩ => show win0_4.index t (0 : Fin 2) * 128 + 1 * k.val = k.val; omega
  | ⟨1, _⟩ => show win0_4.index t (1 : Fin 2) * 512 + 1 * cc.val = cc.val; omega
theorem fused_at5 (c : Dev nD) (t : Fin cfg0.N) (k : Fin 128) (cc : Fin 512) :
    iblk m c 5 t (ix2 k cc) = V m c main_v9 (ix2 k cc) := by
  obtain ⟨e0, e1⟩ := index_w5 t
  show V m c main_v9 (((cfg0.win 5).blk t).view.emb (ix2 k cc)) = _
  refine congrArg _ (funext fun a => Fin.ext ?_)
  match a with
  | ⟨0, _⟩ => show win0_5.index t (0 : Fin 2) * 128 + 1 * k.val = k.val; omega
  | ⟨1, _⟩ => show win0_5.index t (1 : Fin 2) * 512 + 1 * cc.val = cc.val; omega
theorem bias_at6 (c : Dev nD) (t : Fin cfg0.N) (cc : Fin 512) :
    iblk m c 6 t (ix2 (0 : Fin 1) cc) = V m c main_v11 (ix2 (0 : Fin 1) cc) := by
  obtain ⟨e0, e1⟩ := index_w6 t
  show V m c main_v11 (((cfg0.win 6).blk t).view.emb (ix2 (0 : Fin 1) cc)) = _
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * cc.val = cc.val; omega

/-! ## The four gates over a point's blocks -/

/-- The input gate's fused sum over the point's blocks is the gate's pre-activation of the whole arrays at the block's row. -/
theorem pre_I (c : Dev nD) (t : Fin cfg0.N) (p : Fin 2048) (q : Fin 128) :
    blockPre (iblk m c 0 t) (iblk m c 1 t) (iblk m c 4 t) (iblk m c 5 t) (iblk m c 6 t) p (colI q)
      = gate (m ((c : Thread nD τ).loc main_arg0)) (m ((c : Thread nD τ).loc main_arg1)) (m ((c : Thread nD τ).loc main_arg4)) (m ((c : Thread nD τ).loc main_arg5)) (m ((c : Thread nD τ).loc main_arg12)) (rowOf t p) q := by
  have hW : ∀ k : Fin 128, V m c main_v4 (ix2 k (colI q)) = (m ((c : Thread nD τ).loc main_arg4)) (ix2 q k) := fun k => fusedW_I m c k q (colI q) (Nat.zero_add _).symm
  have hU : ∀ k : Fin 128, V m c main_v9 (ix2 k (colI q)) = (m ((c : Thread nD τ).loc main_arg5)) (ix2 q k) := fun k => fusedU_I m c k q (colI q) (Nat.zero_add _).symm
  have hB : V m c main_v11 (ix2 (0 : Fin 1) (colI q)) = (m ((c : Thread nD τ).loc main_arg12)) (ix1 q) := bias_I m c q (colI q) (Nat.zero_add _).symm
  unfold blockPre gate pre
  simp only [rows_at0, rows_at1, fused_at4, fused_at5, bias_at6, hW, hU, hB]

/-- The forget gate's fused sum over the point's blocks is the gate's pre-activation of the whole arrays at the block's row. -/
theorem pre_F (c : Dev nD) (t : Fin cfg0.N) (p : Fin 2048) (q : Fin 128) :
    blockPre (iblk m c 0 t) (iblk m c 1 t) (iblk m c 4 t) (iblk m c 5 t) (iblk m c 6 t) p (colF q)
      = gate (m ((c : Thread nD τ).loc main_arg0)) (m ((c : Thread nD τ).loc main_arg1)) (m ((c : Thread nD τ).loc main_arg6)) (m ((c : Thread nD τ).loc main_arg7)) (m ((c : Thread nD τ).loc main_arg13)) (rowOf t p) q := by
  have hW : ∀ k : Fin 128, V m c main_v4 (ix2 k (colF q)) = (m ((c : Thread nD τ).loc main_arg6)) (ix2 q k) := fun k => fusedW_F m c k q (colF q) rfl
  have hU : ∀ k : Fin 128, V m c main_v9 (ix2 k (colF q)) = (m ((c : Thread nD τ).loc main_arg7)) (ix2 q k) := fun k => fusedU_F m c k q (colF q) rfl
  have hB : V m c main_v11 (ix2 (0 : Fin 1) (colF q)) = (m ((c : Thread nD τ).loc main_arg13)) (ix1 q) := bias_F m c q (colF q) rfl
  unfold blockPre gate pre
  simp only [rows_at0, rows_at1, fused_at4, fused_at5, bias_at6, hW, hU, hB]

/-- The output gate's fused sum over the point's blocks is the gate's pre-activation of the whole arrays at the block's row. -/
theorem pre_O (c : Dev nD) (t : Fin cfg0.N) (p : Fin 2048) (q : Fin 128) :
    blockPre (iblk m c 0 t) (iblk m c 1 t) (iblk m c 4 t) (iblk m c 5 t) (iblk m c 6 t) p (colO q)
      = gate (m ((c : Thread nD τ).loc main_arg0)) (m ((c : Thread nD τ).loc main_arg1)) (m ((c : Thread nD τ).loc main_arg8)) (m ((c : Thread nD τ).loc main_arg9)) (m ((c : Thread nD τ).loc main_arg14)) (rowOf t p) q := by
  have hW : ∀ k : Fin 128, V m c main_v4 (ix2 k (colO q)) = (m ((c : Thread nD τ).loc main_arg8)) (ix2 q k) := fun k => fusedW_O m c k q (colO q) rfl
  have hU : ∀ k : Fin 128, V m c main_v9 (ix2 k (colO q)) = (m ((c : Thread nD τ).loc main_arg9)) (ix2 q k) := fun k => fusedU_O m c k q (colO q) rfl
  have hB : V m c main_v11 (ix2 (0 : Fin 1) (colO q)) = (m ((c : Thread nD τ).loc main_arg14)) (ix1 q) := bias_O m c q (colO q) rfl
  unfold blockPre gate pre
  simp only [rows_at0, rows_at1, fused_at4, fused_at5, bias_at6, hW, hU, hB]

/-- The cell-input gate's fused sum over the point's blocks is the gate's pre-activation of the whole arrays at the block's row. -/
theorem pre_Z (c : Dev nD) (t : Fin cfg0.N) (p : Fin 2048) (q : Fin 128) :
    blockPre (iblk m c 0 t) (iblk m c 1 t) (iblk m c 4 t) (iblk m c 5 t) (iblk m c 6 t) p (colZ q)
      = gate (m ((c : Thread nD τ).loc main_arg0)) (m ((c : Thread nD τ).loc main_arg1)) (m ((c : Thread nD τ).loc main_arg10)) (m ((c : Thread nD τ).loc main_arg11)) (m ((c : Thread nD τ).loc main_arg15)) (rowOf t p) q := by
  have hW : ∀ k : Fin 128, V m c main_v4 (ix2 k (colZ q)) = (m ((c : Thread nD τ).loc main_arg10)) (ix2 q k) := fun k => fusedW_Z m c k q (colZ q) rfl
  have hU : ∀ k : Fin 128, V m c main_v9 (ix2 k (colZ q)) = (m ((c : Thread nD τ).loc main_arg11)) (ix2 q k) := fun k => fusedU_Z m c k q (colZ q) rfl
  have hB : V m c main_v11 (ix2 (0 : Fin 1) (colZ q)) = (m ((c : Thread nD τ).loc main_arg15)) (ix1 q) := bias_Z m c q (colZ q) rfl
  unfold blockPre gate pre
  simp only [rows_at0, rows_at1, fused_at4, fused_at5, bias_at6, hW, hU, hB]

/-! ## The three result arrays -/

/-! ### The new hidden state (window 7) -/

/-- What point `t` writes back is block `t` of the array `hArr` of the launch arrays. -/
theorem flushed_h (c : Dev nD) (t : Fin cfg0.N) :
    (dats m 0 c).flushed 7 t = ((cfg0.win 7).blk t).view.read (Elt Ideal) (hArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  obtain ⟨e0, e1⟩ := index_w7 t
  show (cfg0.win 7).cut (grid0.coords t) ((dats m 0 c).after 7 t) = _
  rw [after7]
  funext y
  obtain ⟨p, q, rfl⟩ : ∃ (p : Fin 2048) (q : Fin 128), y = ix2 p q := ⟨y 0, y 1, eq_ix2 (n0 := 2048) (n1 := 128) y⟩
  show hNew (iblk m c 0 t) (iblk m c 1 t) (iblk m c 2 t) (iblk m c 3 t) (iblk m c 4 t) (iblk m c 5 t) (iblk m c 6 t) (ix2 p q)
      = hArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (((cfg0.win 7).blk t).view.emb (ix2 p q))
  have hemb : ((cfg0.win 7).blk t).view.emb (ix2 p q) = ix2 (rowOf t p) q := by
    funext a; apply Fin.ext
    match a with
    | ⟨0, _⟩ => show win0_7.index t (0 : Fin 2) * 2048 + 1 * p.val = t.val * 2048 + p.val; omega
    | ⟨1, _⟩ => show win0_7.index t (1 : Fin 2) * 128 + 1 * q.val = q.val; omega
  rw [hemb, hNew_at (iblk m c 0 t) (iblk m c 1 t) (iblk m c 2 t) (iblk m c 3 t) (iblk m c 4 t) (iblk m c 5 t) (iblk m c 6 t) p q]
  show _ = hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (rowOf t p) q
  unfold hAt
  rw [pre_I, pre_F, pre_O, pre_Z, rows_at2, rows_at3]

/-- An index of the array lies in point `t`'s block exactly when each coordinate lies in the block's range. -/
theorem mem_blk_h (t : Fin cfg0.N) (i : S262144x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v12_0).slice (win0_7.rect t)).set ↔ _
  rw [View.set_slice_whole, Rect.mem_set_unit]
  exact Iff.rfl

/-- Row `r` of the array is written back by point `r / 2048`: the 128 blocks of 2048 rows tile it. -/
theorem cover_h (i : S262144x128.Idx) :
    ∃ t : Fin cfg0.N, (cfg0.win 7).flush t = true ∧ i ∈ ((cfg0.win 7).blk t).view.set := by
  have hi0 : (i 0).val < 262144 := (i 0).isLt
  have hi1 : (i 1).val < 128 := (i 1).isLt
  have hlt : (i 0).val / 2048 < cfg0.N := lt_of_lt_of_eq (by omega : (i 0).val / 2048 < 128) N_0.symm
  obtain ⟨e0, e1⟩ := index_w7 ⟨(i 0).val / 2048, hlt⟩
  refine ⟨⟨(i 0).val / 2048, hlt⟩, flush0_7 _, ?_⟩
  rw [mem_blk_h]
  intro a
  match a with
  | ⟨0, _⟩ =>
    show win0_7.index ⟨(i 0).val / 2048, hlt⟩ (0 : Fin 2) * 2048 ≤ (i 0).val
      ∧ (i 0).val < win0_7.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, hlt⟩ (1 : Fin 2) * 128 ≤ (i 1).val
      ∧ (i 1).val < win0_7.index ⟨(i 0).val / 2048, hlt⟩ (1 : Fin 2) * 128 + 128
    rw [e1]; omega

/-- The whole array after the 128 write-backs. -/
theorem arr_h (c : Dev nD) : (dats m 0 c).arrAt 7 cfg0.N = hArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (dats m 0 c).arrAt_eq_of_cover 7 _ (fun t _ => flushed_h m c t) cover_h

/-! ### The new cell state (window 8) -/

/-- What point `t` writes back is block `t` of the array `cArr` of the launch arrays. -/
theorem flushed_c (c : Dev nD) (t : Fin cfg0.N) :
    (dats m 0 c).flushed 8 t = ((cfg0.win 8).blk t).view.read (Elt Ideal) (cArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15))) := by
  obtain ⟨e0, e1⟩ := index_w8 t
  show (cfg0.win 8).cut (grid0.coords t) ((dats m 0 c).after 8 t) = _
  rw [after8]
  funext y
  obtain ⟨p, q, rfl⟩ : ∃ (p : Fin 2048) (q : Fin 128), y = ix2 p q := ⟨y 0, y 1, eq_ix2 (n0 := 2048) (n1 := 128) y⟩
  show cNew (iblk m c 0 t) (iblk m c 1 t) (iblk m c 2 t) (iblk m c 3 t) (iblk m c 4 t) (iblk m c 5 t) (iblk m c 6 t) (ix2 p q)
      = cArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) (((cfg0.win 8).blk t).view.emb (ix2 p q))
  have hemb : ((cfg0.win 8).blk t).view.emb (ix2 p q) = ix2 (rowOf t p) q := by
    funext a; apply Fin.ext
    match a with
    | ⟨0, _⟩ => show win0_8.index t (0 : Fin 2) * 2048 + 1 * p.val = t.val * 2048 + p.val; omega
    | ⟨1, _⟩ => show win0_8.index t (1 : Fin 2) * 128 + 1 * q.val = q.val; omega
  rw [hemb, cNew_at (iblk m c 0 t) (iblk m c 1 t) (iblk m c 2 t) (iblk m c 3 t) (iblk m c 4 t) (iblk m c 5 t) (iblk m c 6 t) p q]
  show _ = cAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) (rowOf t p) q
  unfold cAt
  rw [pre_I, pre_F, pre_Z, rows_at2]

/-- An index of the array lies in point `t`'s block exactly when each coordinate lies in the block's range. -/
theorem mem_blk_c (t : Fin cfg0.N) (i : S262144x128.Idx) :
    i ∈ ((cfg0.win 8).blk t).view.set ↔ ∀ a : Fin 2, win0_8.index t a * S2048x128.size a ≤ (i a).val
      ∧ (i a).val < win0_8.index t a * S2048x128.size a + S2048x128.size a := by
  show i ∈ ((View.whole main_v12_1).slice (win0_8.rect t)).set ↔ _
  rw [View.set_slice_whole, Rect.mem_set_unit]
  exact Iff.rfl

/-- Row `r` of the array is written back by point `r / 2048`: the 128 blocks of 2048 rows tile it. -/
theorem cover_c (i : S262144x128.Idx) :
    ∃ t : Fin cfg0.N, (cfg0.win 8).flush t = true ∧ i ∈ ((cfg0.win 8).blk t).view.set := by
  have hi0 : (i 0).val < 262144 := (i 0).isLt
  have hi1 : (i 1).val < 128 := (i 1).isLt
  have hlt : (i 0).val / 2048 < cfg0.N := lt_of_lt_of_eq (by omega : (i 0).val / 2048 < 128) N_0.symm
  obtain ⟨e0, e1⟩ := index_w8 ⟨(i 0).val / 2048, hlt⟩
  refine ⟨⟨(i 0).val / 2048, hlt⟩, flush0_8 _, ?_⟩
  rw [mem_blk_c]
  intro a
  match a with
  | ⟨0, _⟩ =>
    show win0_8.index ⟨(i 0).val / 2048, hlt⟩ (0 : Fin 2) * 2048 ≤ (i 0).val
      ∧ (i 0).val < win0_8.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_8.index ⟨(i 0).val / 2048, hlt⟩ (1 : Fin 2) * 128 ≤ (i 1).val
      ∧ (i 1).val < win0_8.index ⟨(i 0).val / 2048, hlt⟩ (1 : Fin 2) * 128 + 128
    rw [e1]; omega

/-- The whole array after the 128 write-backs. -/
theorem arr_c (c : Dev nD) : (dats m 0 c).arrAt 8 cfg0.N = cArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) :=
  (dats m 0 c).arrAt_eq_of_cover 8 _ (fun t _ => flushed_c m c t) cover_c

/-! ### The new normaliser (window 9) -/

/-- What point `t` writes back is block `t` of the array `nArr` of the launch arrays. -/
theorem flushed_n (c : Dev nD) (t : Fin cfg0.N) :
    (dats m 0 c).flushed 9 t = ((cfg0.win 9).blk t).view.read (Elt Ideal) (nArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) := by
  obtain ⟨e0, e1⟩ := index_w9 t
  show (cfg0.win 9).cut (grid0.coords t) ((dats m 0 c).after 9 t) = _
  rw [after9]
  funext y
  obtain ⟨p, q, rfl⟩ : ∃ (p : Fin 2048) (q : Fin 128), y = ix2 p q := ⟨y 0, y 1, eq_ix2 (n0 := 2048) (n1 := 128) y⟩
  show nNew (iblk m c 0 t) (iblk m c 1 t) (iblk m c 2 t) (iblk m c 3 t) (iblk m c 4 t) (iblk m c 5 t) (iblk m c 6 t) (ix2 p q)
      = nArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (((cfg0.win 9).blk t).view.emb (ix2 p q))
  have hemb : ((cfg0.win 9).blk t).view.emb (ix2 p q) = ix2 (rowOf t p) q := by
    funext a; apply Fin.ext
    match a with
    | ⟨0, _⟩ => show win0_9.index t (0 : Fin 2) * 2048 + 1 * p.val = t.val * 2048 + p.val; omega
    | ⟨1, _⟩ => show win0_9.index t (1 : Fin 2) * 128 + 1 * q.val = q.val; omega
  rw [hemb, nNew_at (iblk m c 0 t) (iblk m c 1 t) (iblk m c 2 t) (iblk m c 3 t) (iblk m c 4 t) (iblk m c 5 t) (iblk m c 6 t) p q]
  show _ = nAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (rowOf t p) q
  unfold nAt
  rw [pre_I, pre_F, rows_at3]

/-- An index of the array lies in point `t`'s block exactly when each coordinate lies in the block's range. -/
theorem mem_blk_n (t : Fin cfg0.N) (i : S262144x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v12_2).slice (win0_9.rect t)).set ↔ _
  rw [View.set_slice_whole, Rect.mem_set_unit]
  exact Iff.rfl

/-- Row `r` of the array is written back by point `r / 2048`: the 128 blocks of 2048 rows tile it. -/
theorem cover_n (i : S262144x128.Idx) :
    ∃ t : Fin cfg0.N, (cfg0.win 9).flush t = true ∧ i ∈ ((cfg0.win 9).blk t).view.set := by
  have hi0 : (i 0).val < 262144 := (i 0).isLt
  have hi1 : (i 1).val < 128 := (i 1).isLt
  have hlt : (i 0).val / 2048 < cfg0.N := lt_of_lt_of_eq (by omega : (i 0).val / 2048 < 128) N_0.symm
  obtain ⟨e0, e1⟩ := index_w9 ⟨(i 0).val / 2048, hlt⟩
  refine ⟨⟨(i 0).val / 2048, hlt⟩, flush0_9 _, ?_⟩
  rw [mem_blk_n]
  intro a
  match a with
  | ⟨0, _⟩ =>
    show win0_9.index ⟨(i 0).val / 2048, hlt⟩ (0 : Fin 2) * 2048 ≤ (i 0).val
      ∧ (i 0).val < win0_9.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_9.index ⟨(i 0).val / 2048, hlt⟩ (1 : Fin 2) * 128 ≤ (i 1).val
      ∧ (i 1).val < win0_9.index ⟨(i 0).val / 2048, hlt⟩ (1 : Fin 2) * 128 + 128
    rw [e1]; omega

/-- The whole array after the 128 write-backs. -/
theorem arr_n (c : Dev nD) : (dats m 0 c).arrAt 9 cfg0.N = nArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) :=
  (dats m 0 c).arrAt_eq_of_cover 9 _ (fun t _ => flushed_n m c t) cover_n

/-! ## The run, with its results named -/

/-- Every execution of the kernel's program ends with the three results at the cell's arrays of the launch arrays, and
    the sixteen arguments as launched. -/
theorem run : θ_run defs (onTc (τ := τ) (main (F := Ideal))) ⟨m, fun _ => 0, ρ⟩ (fun r => ∀ c : Dev nD,
      r.2.mem ((c.tc : Thread nD τ).loc main_v12_0) = hArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_v12_1) = cArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15))
      ∧ r.2.mem ((c.tc : Thread nD τ).loc main_v12_2) = nArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1.trans (arr_h m c), (h c).2.1.trans (arr_c m c),
      (h c).2.2.1.trans (arr_n m c), (h c).2.2.2⟩) (run_named m ρ)

end Cert.KernelIdeal.Arrays

end
-- ==== Proof.RefSpec.lean ====
/-
  The reference program computes the cell entry by entry. Its sixty-five host operations are read
  one at a time: each gate is two products of a batch array with a transposed weight matrix (at
  row `r`, unit `j` the sums `Σₖ x[r,k]·W[j,k]` and `Σₖ h[r,k]·U[j,k]`) plus the bias broadcast
  along the rows, and everything after the gates acts on single entries. The sigmoid appears written
  out as `1 / (1 + exp (−x))` over a broadcast constant one, which is the sigmoid by definition.
-/
import proofs.«423580_j58067957842088_3_alg».proof.Proof.Gen.ReferenceIdeal.Read
import proofs.«423580_j58067957842088_3_alg».proof.Proof.Cell

noncomputable section

namespace Cert.ReferenceIdeal.Spec

open Cert.ReferenceIdeal Cert.ReferenceIdeal.Read Cert.Cell
open Idealize.ShloMosaic Idealize.ShloMosaic.ValueIdx

variable (x0 x1 x2 x3 : (⟨S262144x128, .f32⟩ : BufTy).Contents (Elt Ideal))
  (x4 x5 x6 x7 x8 x9 x10 x11 : (⟨S128x128, .f32⟩ : BufTy).Contents (Elt Ideal))
  (x12 x13 x14 x15 : (⟨S128, .f32⟩ : BufTy).Contents (Elt Ideal))

/-! ## Where each operand is read -/

theorem rowA_i (r : Fin 262144) (j k : Fin 128) : lidx_main_v1 (ix2 r j) k = ix2 r k := by funext a; match a with | ⟨0, _⟩ => rfl | ⟨1, _⟩ => rfl
theorem colA_i (r : Fin 262144) (j k : Fin 128) : idx_main_v0 (ridx_main_v1 (ix2 r j) k) = ix2 j k := by funext a; match a with | ⟨0, _⟩ => rfl | ⟨1, _⟩ => rfl
theorem rowB_i (r : Fin 262144) (j k : Fin 128) : lidx_main_v3 (ix2 r j) k = ix2 r k := by funext a; match a with | ⟨0, _⟩ => rfl | ⟨1, _⟩ => rfl
theorem colB_i (r : Fin 262144) (j k : Fin 128) : idx_main_v2 (ridx_main_v3 (ix2 r j) k) = ix2 j k := by funext a; match a with | ⟨0, _⟩ => rfl | ⟨1, _⟩ => rfl
theorem unit_i (r : Fin 262144) (j : Fin 128) : idx_main_v5 (idx_main_v6 (ix2 r j)) = ix1 j := by
  funext a; match a with | ⟨0, _⟩ => rfl
theorem rowA_f (r : Fin 262144) (j k : Fin 128) : lidx_main_v9 (ix2 r j) k = ix2 r k := by funext a; match a with | ⟨0, _⟩ => rfl | ⟨1, _⟩ => rfl
theorem colA_f (r : Fin 262144) (j k : Fin 128) : idx_main_v8 (ridx_main_v9 (ix2 r j) k) = ix2 j k := by funext a; match a with | ⟨0, _⟩ => rfl | ⟨1, _⟩ => rfl
theorem rowB_f (r : Fin 262144) (j k : Fin 128) : lidx_main_v11 (ix2 r j) k = ix2 r k := by funext a; match a with | ⟨0, _⟩ => rfl | ⟨1, _⟩ => rfl
theorem colB_f (r : Fin 262144) (j k : Fin 128) : idx_main_v10 (ridx_main_v11 (ix2 r j) k) = ix2 j k := by funext a; match a with | ⟨0, _⟩ => rfl | ⟨1, _⟩ => rfl
theorem unit_f (r : Fin 262144) (j : Fin 128) : idx_main_v13 (idx_main_v14 (ix2 r j)) = ix1 j := by
  funext a; match a with | ⟨0, _⟩ => rfl
theorem rowA_o (r : Fin 262144) (j k : Fin 128) : lidx_main_v17 (ix2 r j) k = ix2 r k := by funext a; match a with | ⟨0, _⟩ => rfl | ⟨1, _⟩ => rfl
theorem colA_o (r : Fin 262144) (j k : Fin 128) : idx_main_v16 (ridx_main_v17 (ix2 r j) k) = ix2 j k := by funext a; match a with | ⟨0, _⟩ => rfl | ⟨1, _⟩ => rfl
theorem rowB_o (r : Fin 262144) (j k : Fin 128) : lidx_main_v19 (ix2 r j) k = ix2 r k := by funext a; match a with | ⟨0, _⟩ => rfl | ⟨1, _⟩ => rfl
theorem colB_o (r : Fin 262144) (j k : Fin 128) : idx_main_v18 (ridx_main_v19 (ix2 r j) k) = ix2 j k := by funext a; match a with | ⟨0, _⟩ => rfl | ⟨1, _⟩ => rfl
theorem unit_o (r : Fin 262144) (j : Fin 128) : idx_main_v21 (idx_main_v22 (ix2 r j)) = ix1 j := by
  funext a; match a with | ⟨0, _⟩ => rfl
theorem rowA_z (r : Fin 262144) (j k : Fin 128) : lidx_main_v25 (ix2 r j) k = ix2 r k := by funext a; match a with | ⟨0, _⟩ => rfl | ⟨1, _⟩ => rfl
theorem colA_z (r : Fin 262144) (j k : Fin 128) : idx_main_v24 (ridx_main_v25 (ix2 r j) k) = ix2 j k := by funext a; match a with | ⟨0, _⟩ => rfl | ⟨1, _⟩ => rfl
theorem rowB_z (r : Fin 262144) (j k : Fin 128) : lidx_main_v27 (ix2 r j) k = ix2 r k := by funext a; match a with | ⟨0, _⟩ => rfl | ⟨1, _⟩ => rfl
theorem colB_z (r : Fin 262144) (j k : Fin 128) : idx_main_v26 (ridx_main_v27 (ix2 r j) k) = ix2 j k := by funext a; match a with | ⟨0, _⟩ => rfl | ⟨1, _⟩ => rfl
theorem unit_z (r : Fin 262144) (j : Fin 128) : idx_main_v29 (idx_main_v30 (ix2 r j)) = ix1 j := by
  funext a; match a with | ⟨0, _⟩ => rfl

/-! ## The four gates -/

/-- The input gate's pre-activation: two products with transposed weights and a broadcast bias, at row `r`, unit `j`. -/
theorem gate_i (r : Fin 262144) (j : Fin 128) :
    val_main_v7 (F := Ideal) x0 x1 x4 x5 x12 (ix2 r j) = gate x0 x1 x4 x5 x12 r j := by
  rw [val_main_v7_apply, val_main_v4_apply, val_main_v1_apply, val_main_v3_apply, val_main_v6_apply, val_main_v5_apply]
  simp only [val_main_v0_apply, val_main_v2_apply, rowA_i, colA_i, rowB_i, colB_i, unit_i]
  rfl

/-- The forget gate's pre-activation: two products with transposed weights and a broadcast bias, at row `r`, unit `j`. -/
theorem gate_f (r : Fin 262144) (j : Fin 128) :
    val_main_v15 (F := Ideal) x0 x1 x6 x7 x13 (ix2 r j) = gate x0 x1 x6 x7 x13 r j := by
  rw [val_main_v15_apply, val_main_v12_apply, val_main_v9_apply, val_main_v11_apply, val_main_v14_apply, val_main_v13_apply]
  simp only [val_main_v8_apply, val_main_v10_apply, rowA_f, colA_f, rowB_f, colB_f, unit_f]
  rfl

/-- The output gate's pre-activation: two products with transposed weights and a broadcast bias, at row `r`, unit `j`. -/
theorem gate_o (r : Fin 262144) (j : Fin 128) :
    val_main_v23 (F := Ideal) x0 x1 x8 x9 x14 (ix2 r j) = gate x0 x1 x8 x9 x14 r j := by
  rw [val_main_v23_apply, val_main_v20_apply, val_main_v17_apply, val_main_v19_apply, val_main_v22_apply, val_main_v21_apply]
  simp only [val_main_v16_apply, val_main_v18_apply, rowA_o, colA_o, rowB_o, colB_o, unit_o]
  rfl

/-- The cell-input gate's pre-activation: two products with transposed weights and a broadcast bias, at row `r`, unit `j`. -/
theorem gate_z (r : Fin 262144) (j : Fin 128) :
    val_main_v31 (F := Ideal) x0 x1 x10 x11 x15 (ix2 r j) = gate x0 x1 x10 x11 x15 r j := by
  rw [val_main_v31_apply, val_main_v28_apply, val_main_v25_apply, val_main_v27_apply, val_main_v30_apply, val_main_v29_apply]
  simp only [val_main_v24_apply, val_main_v26_apply, rowA_z, colA_z, rowB_z, colB_z, unit_z]
  rfl

/-! ## The three results -/

/-- The new cell state `f·c + i·z`. -/
theorem c_at (r : Fin 262144) (j : Fin 128) :
    val_main_v53 (F := Ideal) x0 x1 x2 x4 x5 x6 x7 x10 x11 x12 x13 x15 (ix2 r j) = cAt x0 x1 x2 x4 x5 x6 x7 x10 x11 x12 x13 x15 r j := by
  simp only [val_main_v53_apply, val_main_v52_apply, val_main_v51_apply, val_main_v50_apply, val_main_v43_apply, val_main_v42_apply, val_main_v41_apply, val_main_v40_apply, val_main_v39_apply, val_main_v38_apply, val_main_v37_apply, val_main_v36_apply, val_main_v35_apply, val_main_cst_apply, val_main_cst_0_apply, val_main_v34_apply, val_main_v33_apply, val_main_v32_apply]
  rw [gate_i, gate_f, gate_z]
  simp only [Ideal.addf_def, Ideal.mulf_def, Ideal.subf_def, Ideal.maximumf_def, Ideal.hostDivf_def, Ideal.hostUnary_exp_def, Ideal.hostUnary_tanh_def, Ideal.hostNegf_def, Ideal.negf_def, Ideal.ofBits_def, logistic_spelled]
  rfl

/-- The new normaliser `f·n + i`. -/
theorem n_at (r : Fin 262144) (j : Fin 128) :
    val_main_v55 (F := Ideal) x0 x1 x3 x4 x5 x6 x7 x12 x13 (ix2 r j) = nAt x0 x1 x3 x4 x5 x6 x7 x12 x13 r j := by
  simp only [val_main_v55_apply, val_main_v54_apply, val_main_v43_apply, val_main_v42_apply, val_main_v41_apply, val_main_v40_apply, val_main_v39_apply, val_main_v38_apply, val_main_v37_apply, val_main_v36_apply, val_main_v35_apply, val_main_cst_apply, val_main_cst_0_apply, val_main_v34_apply, val_main_v33_apply, val_main_v32_apply]
  rw [gate_i, gate_f]
  simp only [Ideal.addf_def, Ideal.mulf_def, Ideal.subf_def, Ideal.maximumf_def, Ideal.hostDivf_def, Ideal.hostUnary_exp_def, Ideal.hostUnary_tanh_def, Ideal.hostNegf_def, Ideal.negf_def, Ideal.ofBits_def, logistic_spelled]
  rfl

/-- The new hidden state `o · (c' / (n' + ε))`. -/
theorem h_at (r : Fin 262144) (j : Fin 128) :
    val_main_v59 (F := Ideal) x0 x1 x2 x3 x4 x5 x6 x7 x8 x9 x10 x11 x12 x13 x14 x15 (ix2 r j) = hAt x0 x1 x2 x3 x4 x5 x6 x7 x8 x9 x10 x11 x12 x13 x14 x15 r j := by
  rw [val_main_v59_apply, val_main_v58_apply, val_main_v57_apply, c_at, n_at]
  simp only [val_main_v56_apply, val_main_cst_3_apply, val_main_v49_apply, val_main_v48_apply, val_main_v47_apply, val_main_v46_apply, val_main_v45_apply, val_main_v44_apply, val_main_cst_1_apply, val_main_cst_2_apply]
  rw [gate_o]
  simp only [Ideal.addf_def, Ideal.mulf_def, Ideal.subf_def, Ideal.maximumf_def, Ideal.hostDivf_def, Ideal.hostUnary_exp_def, Ideal.hostUnary_tanh_def, Ideal.hostNegf_def, Ideal.negf_def, Ideal.ofBits_def, logistic_spelled]
  rfl

/-- The three results as whole arrays. -/
theorem h_arr : val_main_v59 (F := Ideal) x0 x1 x2 x3 x4 x5 x6 x7 x8 x9 x10 x11 x12 x13 x14 x15 = hArr x0 x1 x2 x3 x4 x5 x6 x7 x8 x9 x10 x11 x12 x13 x14 x15 := by
  funext y
  obtain ⟨r, j, rfl⟩ : ∃ (r : Fin 262144) (j : Fin 128), y = ix2 r j := ⟨y 0, y 1, eq_ix2 y⟩
  exact h_at x0 x1 x2 x3 x4 x5 x6 x7 x8 x9 x10 x11 x12 x13 x14 x15 r j
theorem c_arr : val_main_v53 (F := Ideal) x0 x1 x2 x4 x5 x6 x7 x10 x11 x12 x13 x15 = cArr x0 x1 x2 x4 x5 x6 x7 x10 x11 x12 x13 x15 := by
  funext y
  obtain ⟨r, j, rfl⟩ : ∃ (r : Fin 262144) (j : Fin 128), y = ix2 r j := ⟨y 0, y 1, eq_ix2 y⟩
  exact c_at x0 x1 x2 x4 x5 x6 x7 x10 x11 x12 x13 x15 r j
theorem n_arr : val_main_v55 (F := Ideal) x0 x1 x3 x4 x5 x6 x7 x12 x13 = nArr x0 x1 x3 x4 x5 x6 x7 x12 x13 := by
  funext y
  obtain ⟨r, j, rfl⟩ : ∃ (r : Fin 262144) (j : Fin 128), y = ix2 r j := ⟨y 0, y 1, eq_ix2 y⟩
  exact n_at x0 x1 x3 x4 x5 x6 x7 x12 x13 r j

end Cert.ReferenceIdeal.Spec

end
-- ==== Proof.lean ====
/-
  The certificate of one step of the stabilised sLSTM cell.

  The kernel fuses the four gates: on the host it lays the transposes of the four input-weight
  matrices side by side into one 128×512 matrix, likewise the recurrent weights, and the four biases
  into one row of 512; on each of 128 grid points it multiplies 2048 rows of `x` and of `h` by the
  fused matrices, adds the bias row, cuts the 2048×512 result into the four gates' 2048×128
  pre-activations, and applies the cell entry by entry. The reference computes the four gates by
  eight separate products with transposed weights and applies the same cell to whole arrays.

  On the extended reals the two agree term by term: column `g·128 + q` of a fused matrix is row `q`
  of gate `g`'s matrix, so the fused sum `Σₖ x[r,k]·W_all[k, g·128+q]` is the reference's
  `Σₖ x[r,k]·W_g[q,k]` with the same terms in the same order; rounding the factors to bf16 is the
  identity; the product into a zero accumulator is the plain sum; and the reference's spelled-out
  `1 / (1 + exp (−x))` is the sigmoid by definition. No law of arithmetic beyond these readings is
  used, so the precondition is not needed for the values, and both programs' results are the arrays
  `hArr`, `cArr`, `nArr` of Proof/Cell.lean.

  The frames: each kernel program is its host operations followed by one pallas_call whose body only
  reads its seven input buffers and overwrites its three output buffers; no argument array is
  written. The reference's frame is its run with the results dropped. The idealization rewrote
  nothing, so `preserves` is trivial.
-/
import proofs.«423580_j58067957842088_3_alg».proof.Defs
import proofs.«423580_j58067957842088_3_alg».proof.Proof.Gen.Kernel
import proofs.«423580_j58067957842088_3_alg».proof.Proof.Gen.KernelIdeal
import proofs.«423580_j58067957842088_3_alg».proof.Proof.Gen.ReferenceIdeal
import proofs.«423580_j58067957842088_3_alg».proof.Proof.Gen.Pre_finite_inputs
import proofs.«423580_j58067957842088_3_alg».proof.Proof.BitsRun
import proofs.«423580_j58067957842088_3_alg».proof.Proof.KernelArrays
import proofs.«423580_j58067957842088_3_alg».proof.Proof.RefSpec
import Idealize.ShloMosaic.Adequacy
import Idealize.ShloMosaic.Init

noncomputable section

namespace Cert.Proof

open Idealize.ShloMosaic Idealize.ShloMosaic.TcCoe Idealize.SL.Sem Cert.Cell

/-- The word-level kernel runs to the end and leaves its arguments alone. -/
theorem frame_kernel : Cert.frame_Kernel := fun m ρ _ => Cert.Kernel.Region.frame (F := Bits) m ρ

/-- So does the kernel read on the extended reals. -/
theorem frame_ideal : Cert.frame_KernelIdeal := fun m ρ _ => Cert.KernelIdeal.Region.frame (F := Ideal) m ρ

/-- The reference is host operations only: its run, with the three results dropped. -/
theorem frame_ref : Cert.frame_ReferenceIdeal := fun m ρ _ =>
  (θ_run Cert.ReferenceIdeal.defs _ _).mono (fun _ h c => (h c).2.2.2) (Cert.ReferenceIdeal.Value.run (F := Ideal) m ρ)

/-! The reference's three results, from a launch memory that agrees with the kernel's on the arguments. -/

theorem ref_h
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (a14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    Cert.ReferenceIdeal.Value.res_main_v59 m' c = hArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  rw [Cert.ReferenceIdeal.Read.val_main_v59_eq, Cert.ReferenceIdeal.Spec.h_arr]
  exact hArr_congr a0 a1 a2 a3 a4 a5 a6 a7 a8 a9 a10 a11 a12 a13 a14 a15

theorem ref_c
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    Cert.ReferenceIdeal.Value.res_main_v53 m' c = cArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) := by
  rw [Cert.ReferenceIdeal.Read.val_main_v53_eq, Cert.ReferenceIdeal.Spec.c_arr]
  exact cArr_congr a0 a1 a2 a4 a5 a6 a7 a10 a11 a12 a13 a15

theorem ref_n
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))) :
    Cert.ReferenceIdeal.Value.res_main_v55 m' c = nArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [Cert.ReferenceIdeal.Read.val_main_v55_eq, Cert.ReferenceIdeal.Spec.n_arr]
  exact nArr_congr a0 a1 a3 a4 a5 a6 a7 a12 a13

/-- Both programs end with the cell's three arrays of the launch arrays; the reference's launch arrays are the
    kernel's by hypothesis. -/
theorem algebraic : Cert.algebraic_KernelIdeal_ReferenceIdeal := by
  intro m ρ m' ρ' _ hagree
  refine ⟨fun c => hArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => cArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)),
    fun c => nArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Arrays.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9, a10, a11, a12, a13, a14, a15⟩ := hagree c
  exact ⟨(h c).1.trans (ref_h m m' c a0 a1 a2 a3 a4 a5 a6 a7 a8 a9 a10 a11 a12 a13 a14 a15),
    (h c).2.1.trans (ref_c m m' c a0 a1 a2 a4 a5 a6 a7 a10 a11 a12 a13 a15),
    (h c).2.2.1.trans (ref_n m m' c a0 a1 a3 a4 a5 a6 a7 a12 a13), (h c).2.2.2⟩

theorem claim : Cert.Claim := ⟨Cert.Kernel.Gen.facts, Cert.KernelIdeal.Gen.facts, Cert.ReferenceIdeal.Gen.facts, Cert.Pre_finite_inputs.Gen.facts,
  frame_kernel, frame_ideal, frame_ref, trivial, algebraic⟩

end Cert.Proof

end
